-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S256 : Shape := ⟨1, ![256]⟩
abbrev S256x64 : Shape := ⟨2, ![256, 64]⟩
abbrev S16384 : Shape := ⟨1, ![16384]⟩
abbrev S16384x2048 : Shape := ⟨2, ![16384, 2048]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_arg2 : IVec S256x64 32) (main_v15 : IVec S_ 1) (main_c_5 : IVec S_ 32) : IVec S_ 1 :=
  let main_v16 : IVec S256x64 32 := broadcastInDim S256x64 ![] bcast_S_S256x64 main_c_5
  let main_v17 : IVec S256x64 1 := cmpi .sge main_arg2 main_v16
  let main_c_6 : IVec S_ 32 := constantI S_ 32 16384#32
  let main_v18 : IVec S256x64 32 := broadcastInDim S256x64 ![] bcast_S_S256x64 main_c_6
  let main_v19 : IVec S256x64 1 := cmpi .slt main_arg2 main_v18
  let main_v20 : IVec S256x64 1 := andi main_v17 main_v19
  let main_c_7 : IVec S_ 1 := constantI S_ 1 1#1
  let main_v21 : IVec S_ 1 := (fun x v => Host.reduce IntOp.andi x v reducesTo_S256x64_S_d0_1 h_S_) main_v20 main_c_7
  let main_v22 : IVec S_ 1 := andi main_v15 main_v21
  main_v22

def fn {F : FTy → Type} [FloatOps F] (main_arg0 : FVec F S256x2048 .f32) (main_arg1 : IVec S256 32) (main_arg2 : IVec S256x64 32) (main_arg3 : IVec S256 32) (main_arg4 : IVec S16384 32) (main_arg5 : FVec F S16384x2048 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S16384x2048 .f32 := Host.absf main_arg5
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_c_2 : IVec S_ 32 := constantI S_ 32 0#32
  let main_v9 : IVec S256 32 := broadcastInDim S256 ![] bcast_S_S256 main_c_2
  let main_v10 : IVec S256 1 := cmpi .sge main_arg1 main_v9
  let main_c_3 : IVec S_ 32 := constantI S_ 32 16384#32
  let main_v11 : IVec S256 32 := broadcastInDim S256 ![] bcast_S_S256 main_c_3
  let main_v12 : IVec S256 1 := cmpi .slt main_arg1 main_v11
  let main_v13 : IVec S256 1 := andi main_v10 main_v12
  let main_c_4 : IVec S_ 1 := constantI S_ 1 1#1
  let main_v14 : IVec S_ 1 := (fun x v => Host.reduce IntOp.andi x v reducesTo_S256_S_d0 h_S_) main_v13 main_c_4
  let main_v15 : IVec S_ 1 := andi main_v8 main_v14
  let main_c_5 : IVec S_ 32 := constantI S_ 32 0#32
  fn_part1 (F := F) main_arg2 main_v15 main_c_5
-- ==== Kernel.lean ====
abbrev S256x2048 : Shape := ⟨2, ![256, 2048]⟩
abbrev S256 : Shape := ⟨1, ![256]⟩
abbrev S256x64 : Shape := ⟨2, ![256, 64]⟩
abbrev S16384 : Shape := ⟨1, ![16384]⟩
abbrev S16384x2048 : Shape := ⟨2, ![16384, 2048]⟩
abbrev S_ : Shape := ⟨0, ![]⟩
abbrev S256x1 : Shape := ⟨2, ![256, 1]⟩
abbrev S1 : Shape := ⟨1, ![1]⟩
abbrev S1x1 : Shape := ⟨2, ![1, 1]⟩
abbrev S512x2048 : Shape := ⟨2, ![512, 2048]⟩
abbrev S256x16384 : Shape := ⟨2, ![256, 16384]⟩
abbrev S16384x1 : Shape := ⟨2, ![16384, 1]⟩
abbrev S2048x2048 : Shape := ⟨2, ![2048, 2048]⟩
abbrev S2048x1 : Shape := ⟨2, ![2048, 1]⟩
abbrev S2048 : Shape := ⟨1, ![2048]⟩
abbrev S256x64x1 : Shape := ⟨3, ![256, 64, 1]⟩
abbrev S1x1x1 : Shape := ⟨3, ![1, 1, 1]⟩

abbrev nBuf : Space → Nat
  | .hbm => 143
  | .vmem => 9
  | .smem => 0
  | _ => 0

abbrev hbmTy0_0 (i : Nat) : BufTy := match i % 128 with
  | 0 => ⟨S256x2048, .f32⟩
  | 1 => ⟨S256, .i32⟩
  | 2 => ⟨S256x64, .i32⟩
  | 3 => ⟨S256, .i32⟩
  | 4 => ⟨S16384, .i32⟩
  | 5 => ⟨S16384x2048, .f32⟩
  | 6 => ⟨S256x2048, .f32⟩
  | 7 => ⟨S_, .f32⟩
  | 8 => ⟨S256, .f32⟩
  | 9 => ⟨S256x1, .f32⟩
  | 10 => ⟨S256x1, .f32⟩
  | 11 => ⟨S_, .f32⟩
  | 12 => ⟨S256x1, .f32⟩
  | 13 => ⟨S256x1, .f32⟩
  | 14 => ⟨S256x2048, .f32⟩
  | 15 => ⟨S256x2048, .f32⟩
  | 16 => ⟨S_, .i32⟩
  | 17 => ⟨S256, .i32⟩
  | 18 => ⟨S256, .i1⟩
  | 19 => ⟨S_, .i32⟩
  | 20 => ⟨S256, .i32⟩
  | 21 => ⟨S256, .i32⟩
  | 22 => ⟨S256, .i32⟩
  | 23 => ⟨S256x1, .i32⟩
  | 24 => ⟨S1, .i32⟩
  | 25 => ⟨S_, .i32⟩
  | 26 => ⟨S256x1, .i32⟩
  | 27 => ⟨S256x1, .i1⟩
  | 28 => ⟨S1x1, .i32⟩
  | 29 => ⟨S256x1, .i32⟩
  | 30 => ⟨S256x1, .i1⟩
  | 31 => ⟨S256x1, .i1⟩
  | 32 => ⟨S_, .i1⟩
  | 33 => ⟨S256, .i1⟩
  | 34 => ⟨S256x2048, .f32⟩
  | 35 => ⟨S256x2048, .i1⟩
  | 36 => ⟨S_, .f32⟩
  | 37 => ⟨S256x2048, .f32⟩
  | 38 => ⟨S256x2048, .f32⟩
  | 39 => ⟨S512x2048, .f32⟩
  | 40 => ⟨S256x16384, .f32⟩
  | 41 => ⟨S256x16384, .f32⟩
  | 42 => ⟨S16384x1, .f32⟩
  | 43 => ⟨S256x2048, .f32⟩
  | 44 => ⟨S_, .f32⟩
  | 45 => ⟨S256, .f32⟩
  | 46 => ⟨S256x1, .f32⟩
  | 47 => ⟨S_, .f32⟩
  | 48 => ⟨S256x1, .f32⟩
  | 49 => ⟨S256x1, .f32⟩
  | 50 => ⟨S_, .i32⟩
  | 51 => ⟨S256x64, .i32⟩
  | 52 => ⟨S256x64, .i1⟩
  | 53 => ⟨S_, .i32⟩
  | 54 => ⟨S256x64, .i32⟩
  | 55 => ⟨S256x64, .i32⟩
  | 56 => ⟨S256x64, .i32⟩
  | 57 => ⟨S256x64x1, .i32⟩
  | 58 => ⟨S1, .i32⟩
  | 59 => ⟨S_, .i32⟩
  | 60 => ⟨S256x64x1, .i32⟩
  | 61 => ⟨S256x64x1, .i1⟩
  | 62 => ⟨S1x1x1, .i32⟩
  | 63 => ⟨S256x64x1, .i32⟩
  | 64 => ⟨S256x64x1, .i1⟩
  | 65 => ⟨S256x64x1, .i1⟩
  | 66 => ⟨S_, .i1⟩
  | 67 => ⟨S256x64, .i1⟩
  | 68 => ⟨S256x64, .i32⟩
  | 69 => ⟨S_, .i32⟩
  | 70 => ⟨S256x64, .i32⟩
  | 71 => ⟨S256x64, .i32⟩
  | 72 => ⟨S_, .i32⟩
  | 73 => ⟨S256x64, .i32⟩
  | 74 => ⟨S256x64, .i1⟩
  | 75 => ⟨S_, .i32⟩
  | 76 => ⟨S256x64, .i32⟩
  | 77 => ⟨S256x64, .i32⟩
  | 78 => ⟨S256x64, .i32⟩
  | 79 => ⟨S256x64x1, .i32⟩
  | 80 => ⟨S1, .i32⟩
  | 81 => ⟨S_, .i32⟩
  | 82 => ⟨S256x64x1, .i32⟩
  | 83 => ⟨S256x64x1, .i1⟩
  | 84 => ⟨S1x1x1, .i32⟩
  | 85 => ⟨S256x64x1, .i32⟩
  | 86 => ⟨S256x64x1, .i1⟩
  | 87 => ⟨S256x64x1, .i1⟩
  | 88 => ⟨S_, .i1⟩
  | 89 => ⟨S256x64, .i1⟩
  | 90 => ⟨S256x64, .f32⟩
  | 91 => ⟨S_, .f32⟩
  | 92 => ⟨S256x64, .f32⟩
  | 93 => ⟨S256x64, .f32⟩
  | 94 => ⟨S256x64, .f32⟩
  | 95 => ⟨S256x64, .i1⟩
  | 96 => ⟨S_, .f32⟩
  | 97 => ⟨S256x64, .f32⟩
  | 98 => ⟨S256x64, .i1⟩
  | 99 => ⟨S256x64, .i1⟩
  | 100 => ⟨S256x64, .i32⟩
  | 101 => ⟨S_, .i32⟩
  | 102 => ⟨S_, .i32⟩
  | 103 => ⟨S_, .f32⟩
  | 104 => ⟨S_, .f32⟩
  | 105 => ⟨S256x64, .f32⟩
  | 106 => ⟨S256x64, .f32⟩
  | 107 => ⟨S256x64, .f32⟩
  | 108 => ⟨S256x64, .f32⟩
  | 109 => ⟨S256x64, .i1⟩
  | 110 => ⟨S256x64, .f32⟩
  | 111 => ⟨S256x64, .f32⟩
  | 112 => ⟨S256x64, .f32⟩
  | 113 => ⟨S256x64, .f32⟩
  | 114 => ⟨S256x64, .f32⟩
  | 115 => ⟨S256x64, .f32⟩
  | 116 => ⟨S256x64, .f32⟩
  | 117 => ⟨S256x64, .f32⟩
  | 118 => ⟨S_, .f32⟩
  | 119 => ⟨S_, .i1⟩
  | 120 => ⟨S_, .f32⟩
  | 121 => ⟨S_, .f32⟩
  | 122 => ⟨S256x64, .f32⟩
  | 123 => ⟨S256x64, .f32⟩
  | 124 => ⟨S_, .f32⟩
  | 125 => ⟨S_, .f32⟩
  | 126 => ⟨S_, .f32⟩
  | 127 => ⟨S_, .f32⟩
  | _ => ⟨S256x2048, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S16384, .f32⟩
  | 5 => ⟨S_, .f32⟩
  | 6 => ⟨S16384, .f32⟩
  | 7 => ⟨S16384, .i1⟩
  | 8 => ⟨S_, .i1⟩
  | 9 => ⟨S_, .i1⟩
  | 10 => ⟨S_, .f32⟩
  | 11 => ⟨S_, .f32⟩
  | 12 => ⟨S_, .f32⟩
  | 13 => ⟨S_, .f32⟩
  | 14 => ⟨S_, .f32⟩
  | _ => ⟨S256x2048, .f32⟩

abbrev hbmTy (i : Nat) : BufTy := match i / 128 with
  | 0 => hbmTy0_0 i
  | 1 => hbmTy0_1 i
  | _ => ⟨S256x2048, .f32⟩

abbrev bufTy : (tb : Table) → Fin (tcTables nBuf tb) → BufTy
  | .hbm, ⟨i, _⟩ => hbmTy i
  | .local _ .vmem, ⟨0, _⟩ => ⟨S512x2048, .f32⟩
  | .local _ .vmem, ⟨1, _⟩ => ⟨S2048x2048, .f32⟩
  | .local _ .vmem, ⟨2, _⟩ => ⟨S2048x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S2048x1, .f32⟩
  | .local _ .vmem, ⟨8, _⟩ => ⟨S2048x1, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_call1_cst : Ref sig .tc := ⟨.hbm, 36, rfl⟩
abbrev main_call1_v15 : Ref sig .tc := ⟨.hbm, 37, rfl⟩
abbrev main_v5 : Ref sig .tc := ⟨.hbm, 38, rfl⟩
abbrev main_v6 : Ref sig .tc := ⟨.hbm, 39, rfl⟩
abbrev main_v7_0 : Ref sig .tc := ⟨.hbm, 40, rfl⟩
abbrev main_v7_1 : Ref sig .tc := ⟨.hbm, 41, rfl⟩
abbrev main_v7_2 : Ref sig .tc := ⟨.hbm, 42, rfl⟩
abbrev main_v8 : Ref sig .tc := ⟨.hbm, 43, rfl⟩
abbrev main_cst_0 : Ref sig .tc := ⟨.hbm, 44, rfl⟩
abbrev main_v9 : Ref sig .tc := ⟨.hbm, 45, rfl⟩
abbrev main_v10 : Ref sig .tc := ⟨.hbm, 46, rfl⟩
abbrev main_cst_1 : Ref sig .tc := ⟨.hbm, 47, rfl⟩
abbrev main_v11 : Ref sig .tc := ⟨.hbm, 48, rfl⟩
abbrev main_v12 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_c_4 : Ref sig .tc := ⟨.hbm, 69, rfl⟩
abbrev main_call2_v14 : Ref sig .tc := ⟨.hbm, 70, rfl⟩
abbrev main_v13 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_c_1 : Ref sig .tc := ⟨.hbm, 80, rfl⟩
abbrev main_call3_c_2 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_3 : Ref sig .tc := ⟨.hbm, 88, rfl⟩
abbrev main_call3_v12 : Ref sig .tc := ⟨.hbm, 89, rfl⟩
abbrev main_call3_v13 : Ref sig .tc := ⟨.hbm, 90, rfl⟩
abbrev main_call3_cst : Ref sig .tc := ⟨.hbm, 91, rfl⟩
abbrev main_call3_v14 : Ref sig .tc := ⟨.hbm, 92, rfl⟩
abbrev main_v14 : Ref sig .tc := ⟨.hbm, 93, rfl⟩
abbrev main_v15 : Ref sig .tc := ⟨.hbm, 94, rfl⟩
abbrev main_v16 : Ref sig .tc := ⟨.hbm, 95, rfl⟩
abbrev main_cst_2 : Ref sig .tc := ⟨.hbm, 96, rfl⟩
abbrev main_v17 : Ref sig .tc := ⟨.hbm, 97, rfl⟩
abbrev main_v18 : Ref sig .tc := ⟨.hbm, 98, rfl⟩
abbrev main_v19 : Ref sig .tc := ⟨.hbm, 99, rfl⟩
abbrev main_v20 : Ref sig .tc := ⟨.hbm, 100, rfl⟩
abbrev main_c : Ref sig .tc := ⟨.hbm, 101, rfl⟩
abbrev main_v21 : Ref sig .tc := ⟨.hbm, 102, rfl⟩
abbrev main_v22 : Ref sig .tc := ⟨.hbm, 103, rfl⟩
abbrev main_call4_cst : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_v23 : Ref sig .tc := ⟨.hbm, 117, rfl⟩
abbrev main_cst_3 : Ref sig .tc := ⟨.hbm, 118, rfl⟩
abbrev main_v24 : Ref sig .tc := ⟨.hbm, 119, rfl⟩
abbrev main_cst_4 : Ref sig .tc := ⟨.hbm, 120, rfl⟩
abbrev main_call5_v0 : Ref sig .tc := ⟨.hbm, 121, rfl⟩
abbrev main_call5_v1 : Ref sig .tc := ⟨.hbm, 122, rfl⟩
abbrev main_v25 : Ref sig .tc := ⟨.hbm, 123, rfl⟩
abbrev main_cst_5 : Ref sig .tc := ⟨.hbm, 124, rfl⟩
abbrev main_v26 : Ref sig .tc := ⟨.hbm, 125, rfl⟩
abbrev main_cst_6 : Ref sig .tc := ⟨.hbm, 126, rfl⟩
abbrev main_v27 : Ref sig .tc := ⟨.hbm, 127, rfl⟩
abbrev main_v28 : Ref sig .tc := ⟨.hbm, 128, rfl⟩
abbrev main_cst_7 : Ref sig .tc := ⟨.hbm, 129, rfl⟩
abbrev main_call6_v0 : Ref sig .tc := ⟨.hbm, 130, rfl⟩
abbrev main_v29 : Ref sig .tc := ⟨.hbm, 131, rfl⟩
abbrev main_v30 : Ref sig .tc := ⟨.hbm, 132, rfl⟩
abbrev main_cst_8 : Ref sig .tc := ⟨.hbm, 133, rfl⟩
abbrev main_v31 : Ref sig .tc := ⟨.hbm, 134, rfl⟩
abbrev main_v32 : Ref sig .tc := ⟨.hbm, 135, rfl⟩
abbrev main_c_9 : Ref sig .tc := ⟨.hbm, 136, rfl⟩
abbrev main_v33 : Ref sig .tc := ⟨.hbm, 137, rfl⟩
abbrev main_cst_10 : Ref sig .tc := ⟨.hbm, 138, rfl⟩
abbrev main_call7_v0 : Ref sig .tc := ⟨.hbm, 139, rfl⟩
abbrev main_v34 : Ref sig .tc := ⟨.hbm, 140, rfl⟩
abbrev main_cst_11 : Ref sig .tc := ⟨.hbm, 141, rfl⟩
abbrev main_v35 : Ref sig .tc := ⟨.hbm, 142, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S256x2048_S256_d1 : S256x2048.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x2048_0_1 : S256x1.BroadcastsInDim S256x2048 (![0, 1] : Fin 2 → Fin S256x2048.rank)
  bcast_S_S256 : S_.BroadcastsInDim S256 (![] : Fin 0 → Fin S256.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  bcast_S256_S256x2048_0 : S256.BroadcastsInDim S256x2048 (![0] : Fin 1 → Fin S256x2048.rank)
  bcast_S_S256x2048 : S_.BroadcastsInDim S256x2048 (![] : Fin 0 → Fin S256x2048.rank)
  concatenates_S256x2048_S256x2048_S512x2048_d0 : Shape.Concatenates [S256x2048, S256x2048] S512x2048 0
  inb_S2048x2048_S2048x2048_0_0 : ∀ a, (![0, 0] : Fin 2 → Nat) a + S2048x2048.size a ≤ S2048x2048.size a
  h_S2048x2048 : 0 < S2048x2048.numel
  reduces_S2048x2048_S2048 : S2048x2048.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  slices_S512x2048_o0_0_S256x2048 : S512x2048.Slices ![0, 0] S256x2048
  inb_S256x2048_S256x2048_0_0 : ∀ a, (![0, 0] : Fin 2 → Nat) a + S256x2048.size a ≤ S256x2048.size a
  h_S256x2048 : 0 < S256x2048.numel
  slices_S512x2048_o256_0_S256x2048 : S512x2048.Slices ![256, 0] S256x2048
  bcast_S_S256x64 : S_.BroadcastsInDim S256x64 (![] : Fin 0 → Fin S256x64.rank)
  bcast_S256x64_S256x64x1_0_1 : S256x64.BroadcastsInDim S256x64x1 (![0, 1] : Fin 2 → Fin S256x64x1.rank)
  bcast_S_S256x64x1 : S_.BroadcastsInDim S256x64x1 (![] : Fin 0 → Fin S256x64x1.rank)
  bcast_S1_S1x1x1_2 : S1.BroadcastsInDim S1x1x1 (![2] : Fin 1 → Fin S1x1x1.rank)
  bcast_S1x1x1_S256x64x1_0_1_2 : S1x1x1.BroadcastsInDim S256x64x1 (![0, 1, 2] : Fin 3 → Fin S256x64x1.rank)
  reducesTo_S256x64x1_S256x64_d2 : S256x64x1.ReducesTo [2] S256x64
  shapeCasts_S256x64_S256x64x1 : S256x64.ShapeCasts S256x64x1
  bcast_S256x1_S256x64_0_1 : S256x1.BroadcastsInDim S256x64 (![0, 1] : Fin 2 → Fin S256x64.rank)
  natLt_1_32 : 1 < 32
  reducesTo_S256x64_S_d0_1 : S256x64.ReducesTo [0, 1] S_
  shapeCasts_S16384x1_S16384 : S16384x1.ShapeCasts S16384
  bcast_S_S16384 : S_.BroadcastsInDim S16384 (![] : Fin 0 → Fin S16384.rank)
  reducesTo_S16384_S_d0 : S16384.ReducesTo [0] S_
  gather_S16384x2048_S256x1_S256x2048_1_0_n_n_0_1_12048_wf : GatherDims.WF S16384x2048 S256x1 S256x2048 [1] [0] [] [0] [] 1 ![1, 2048]
  dot_S512x2048_S2048x2048_S512x2048_1_1_0_0_n_n_wf : DotDims.WF S512x2048 S2048x2048 S512x2048 [1] [1] [0] [0] [] []
  gather_S16384_S256x64x1_S256x64_n_0_n_n_0_2_1_wf : GatherDims.WF S16384 S256x64x1 S256x64 [] [0] [] [0] [] 2 ![1]
  gather_S256x16384_S256x64x1_S256x64_n_1_0_0_1_2_11_wf : GatherDims.WF S256x16384 S256x64x1 S256x64 [] [1] [0] [1] [0] 2 ![1, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .f32 = 32 ∨ (Rect.block (s := S512x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S16384x2048.size a
  hwx0_1 : ∀ i : grid0.Coords, EltTy.bits .f32 = 32 ∨ (Rect.block (s := S16384x2048) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x16384.size a
  hwx0_2 : ∀ i : grid0.Coords, EltTy.bits .f32 = 32 ∨ (Rect.block (s := S256x16384) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x16384.size a
  hwx0_3 : ∀ i : grid0.Coords, EltTy.bits .f32 = 32 ∨ (Rect.block (s := S256x16384) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S16384x1.size a
  hwx0_4 : ∀ i : grid0.Coords, EltTy.bits .f32 = 32 ∨ (Rect.block (s := S16384x1) S2048x1.size (cc0_transform_4 i) (hinb0_4 i)).WholeWords (EltTy.packing .f32)

variable [Facts₀]

def gather_S16384x2048_S256x1_S256x2048_1_0_n_n_0_1_12048 : GatherDims S16384x2048 S256x1 S256x2048 where
  offsetDims := [1]
  collapsedSliceDims := [0]
  operandBatchingDims := []
  startIndicesBatchingDims := []
  startIndexMap := [0]
  indexVectorDim := 1
  sliceSizes := ![1, 2048]
  wf := gather_S16384x2048_S256x1_S256x2048_1_0_n_n_0_1_12048_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def gather_S16384_S256x64x1_S256x64_n_0_n_n_0_2_1 : GatherDims S16384 S256x64x1 S256x64 where
  offsetDims := []
  collapsedSliceDims := [0]
  operandBatchingDims := []
  startIndicesBatchingDims := []
  startIndexMap := [0]
  indexVectorDim := 2
  sliceSizes := ![1]
  wf := gather_S16384_S256x64x1_S256x64_n_0_n_n_0_2_1_wf
def gather_S256x16384_S256x64x1_S256x64_n_1_0_0_1_2_11 : GatherDims S256x16384 S256x64x1 S256x64 where
  offsetDims := []
  collapsedSliceDims := [1]
  operandBatchingDims := [0]
  startIndicesBatchingDims := [0]
  startIndexMap := [1]
  indexVectorDim := 2
  sliceSizes := ![1, 1]
  wf := gather_S256x16384_S256x64x1_S256x64_n_1_0_0_1_2_11_wf

abbrev win0_0 : Pipeline.Window sig grid0 :=
  Pipeline.Window.ofSpec (Memref.whole main_v6) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S256x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S256x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_2) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x2048 : Shape := ⟨2, ![256, 2048]⟩
abbrev S256 : Shape := ⟨1, ![256]⟩
abbrev S256x64 : Shape := ⟨2, ![256, 64]⟩
abbrev S16384 : Shape := ⟨1, ![16384]⟩
abbrev S16384x2048 : Shape := ⟨2, ![16384, 2048]⟩
abbrev S2048x16384 : Shape := ⟨2, ![2048, 16384]⟩
abbrev S256x16384 : Shape := ⟨2, ![256, 16384]⟩
abbrev S_ : Shape := ⟨0, ![]⟩
abbrev S256x1 : Shape := ⟨2, ![256, 1]⟩
abbrev S256x1x1 : Shape := ⟨3, ![256, 1, 1]⟩
abbrev S1 : Shape := ⟨1, ![1]⟩
abbrev S1x1x1 : Shape := ⟨3, ![1, 1, 1]⟩
abbrev S256x64x1 : Shape := ⟨3, ![256, 64, 1]⟩

abbrev nBuf : Space → Nat
  | .hbm => 141
  | .vmem => 0
  | .smem => 0
  | _ => 0

abbrev hbmTy0_0 (i : Nat) : BufTy := match i % 128 with
  | 0 => ⟨S256x2048, .f32⟩
  | 1 => ⟨S256, .i32⟩
  | 2 => ⟨S256x64, .i32⟩
  | 3 => ⟨S256, .i32⟩
  | 4 => ⟨S16384, .i32⟩
  | 5 => ⟨S16384x2048, .f32⟩
  | 6 => ⟨S2048x16384, .f32⟩
  | 7 => ⟨S256x16384, .f32⟩
  | 8 => ⟨S_, .f32⟩
  | 9 => ⟨S256x16384, .f32⟩
  | 10 => ⟨S256x16384, .f32⟩
  | 11 => ⟨S256x2048, .f32⟩
  | 12 => ⟨S_, .f32⟩
  | 13 => ⟨S256, .f32⟩
  | 14 => ⟨S256x1, .f32⟩
  | 15 => ⟨S256x1, .f32⟩
  | 16 => ⟨S_, .f32⟩
  | 17 => ⟨S256x1, .f32⟩
  | 18 => ⟨S256x1, .f32⟩
  | 19 => ⟨S256x2048, .f32⟩
  | 20 => ⟨S256x2048, .f32⟩
  | 21 => ⟨S2048x16384, .f32⟩
  | 22 => ⟨S256x16384, .f32⟩
  | 23 => ⟨S256x1, .i32⟩
  | 24 => ⟨S_, .i32⟩
  | 25 => ⟨S256x1, .i32⟩
  | 26 => ⟨S256x1, .i1⟩
  | 27 => ⟨S_, .i32⟩
  | 28 => ⟨S256x1, .i32⟩
  | 29 => ⟨S256x1, .i32⟩
  | 30 => ⟨S256x1, .i32⟩
  | 31 => ⟨S256x1x1, .i32⟩
  | 32 => ⟨S1, .i32⟩
  | 33 => ⟨S_, .i32⟩
  | 34 => ⟨S256x1x1, .i32⟩
  | 35 => ⟨S256x1x1, .i1⟩
  | 36 => ⟨S1x1x1, .i32⟩
  | 37 => ⟨S256x1x1, .i32⟩
  | 38 => ⟨S256x1x1, .i1⟩
  | 39 => ⟨S256x1x1, .i1⟩
  | 40 => ⟨S_, .i1⟩
  | 41 => ⟨S256x1, .i1⟩
  | 42 => ⟨S256x1, .f32⟩
  | 43 => ⟨S_, .f32⟩
  | 44 => ⟨S256x1, .f32⟩
  | 45 => ⟨S256x1, .f32⟩
  | 46 => ⟨S_, .f32⟩
  | 47 => ⟨S256x1, .f32⟩
  | 48 => ⟨S256x1, .f32⟩
  | 49 => ⟨S_, .i32⟩
  | 50 => ⟨S256, .i32⟩
  | 51 => ⟨S256, .i1⟩
  | 52 => ⟨S_, .i32⟩
  | 53 => ⟨S256, .i32⟩
  | 54 => ⟨S256, .i32⟩
  | 55 => ⟨S256, .i32⟩
  | 56 => ⟨S256x1, .i32⟩
  | 57 => ⟨S256x2048, .f32⟩
  | 58 => ⟨S2048x16384, .f32⟩
  | 59 => ⟨S256x16384, .f32⟩
  | 60 => ⟨S_, .i32⟩
  | 61 => ⟨S256x64, .i32⟩
  | 62 => ⟨S256x64, .i1⟩
  | 63 => ⟨S_, .i32⟩
  | 64 => ⟨S256x64, .i32⟩
  | 65 => ⟨S256x64, .i32⟩
  | 66 => ⟨S256x64, .i32⟩
  | 67 => ⟨S256x64x1, .i32⟩
  | 68 => ⟨S256x64, .i32⟩
  | 69 => ⟨S_, .i32⟩
  | 70 => ⟨S256x64, .i32⟩
  | 71 => ⟨S256x64, .i1⟩
  | 72 => ⟨S_, .i32⟩
  | 73 => ⟨S256x64, .i32⟩
  | 74 => ⟨S256x64, .i32⟩
  | 75 => ⟨S256x64, .i32⟩
  | 76 => ⟨S256x64x1, .i32⟩
  | 77 => ⟨S1, .i32⟩
  | 78 => ⟨S_, .i32⟩
  | 79 => ⟨S256x64x1, .i32⟩
  | 80 => ⟨S256x64x1, .i1⟩
  | 81 => ⟨S1x1x1, .i32⟩
  | 82 => ⟨S256x64x1, .i32⟩
  | 83 => ⟨S256x64x1, .i1⟩
  | 84 => ⟨S256x64x1, .i1⟩
  | 85 => ⟨S_, .i1⟩
  | 86 => ⟨S256x64, .i1⟩
  | 87 => ⟨S256x64, .f32⟩
  | 88 => ⟨S_, .f32⟩
  | 89 => ⟨S256x64, .f32⟩
  | 90 => ⟨S256x64, .f32⟩
  | 91 => ⟨S256x64, .f32⟩
  | 92 => ⟨S256x64, .i1⟩
  | 93 => ⟨S_, .f32⟩
  | 94 => ⟨S256x64, .f32⟩
  | 95 => ⟨S256x64, .i1⟩
  | 96 => ⟨S256x64, .i1⟩
  | 97 => ⟨S256x64, .i32⟩
  | 98 => ⟨S_, .i32⟩
  | 99 => ⟨S_, .i32⟩
  | 100 => ⟨S_, .f32⟩
  | 101 => ⟨S_, .f32⟩
  | 102 => ⟨S256x64, .f32⟩
  | 103 => ⟨S256x64, .f32⟩
  | 104 => ⟨S256x64, .f32⟩
  | 105 => ⟨S256x64, .f32⟩
  | 106 => ⟨S256x64, .i1⟩
  | 107 => ⟨S256x64, .f32⟩
  | 108 => ⟨S256x64, .f32⟩
  | 109 => ⟨S256x64, .f32⟩
  | 110 => ⟨S256x64, .f32⟩
  | 111 => ⟨S256x64, .f32⟩
  | 112 => ⟨S256x64, .f32⟩
  | 113 => ⟨S256x64, .f32⟩
  | 114 => ⟨S256x64, .f32⟩
  | 115 => ⟨S_, .f32⟩
  | 116 => ⟨S_, .i1⟩
  | 117 => ⟨S_, .f32⟩
  | 118 => ⟨S_, .f32⟩
  | 119 => ⟨S256x64, .f32⟩
  | 120 => ⟨S256x64, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S256x2048, .f32⟩

abbrev hbmTy0_1 (i : Nat) : BufTy := match i % 128 with
  | 0 => ⟨S_, .f32⟩
  | 1 => ⟨S_, .f32⟩
  | 2 => ⟨S16384, .f32⟩
  | 3 => ⟨S_, .f32⟩
  | 4 => ⟨S16384, .f32⟩
  | 5 => ⟨S16384, .i1⟩
  | 6 => ⟨S_, .i1⟩
  | 7 => ⟨S_, .i1⟩
  | 8 => ⟨S_, .f32⟩
  | 9 => ⟨S_, .f32⟩
  | 10 => ⟨S_, .f32⟩
  | 11 => ⟨S_, .f32⟩
  | 12 => ⟨S_, .f32⟩
  | _ => ⟨S256x2048, .f32⟩

abbrev hbmTy (i : Nat) : BufTy := match i / 128 with
  | 0 => hbmTy0_0 i
  | 1 => hbmTy0_1 i
  | _ => ⟨S256x2048, .f32⟩

abbrev bufTy : (tb : Table) → Fin (tcTables nBuf tb) → BufTy
  | .hbm, ⟨i, _⟩ => hbmTy i
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v12 : Ref sig .tc := ⟨.hbm, 45, rfl⟩
abbrev main_cst_1 : Ref sig .tc := ⟨.hbm, 46, rfl⟩
abbrev main_v13 : Ref sig .tc := ⟨.hbm, 47, rfl⟩
abbrev main_v14 : Ref sig .tc := ⟨.hbm, 48, rfl⟩
abbrev main_c : Ref sig .tc := ⟨.hbm, 49, rfl⟩
abbrev main_v15 : Ref sig .tc := ⟨.hbm, 50, rfl⟩
abbrev main_v16 : Ref sig .tc := ⟨.hbm, 51, rfl⟩
abbrev main_c_2 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_c_3 : Ref sig .tc := ⟨.hbm, 60, rfl⟩
abbrev main_v24 : Ref sig .tc := ⟨.hbm, 61, rfl⟩
abbrev main_v25 : Ref sig .tc := ⟨.hbm, 62, rfl⟩
abbrev main_c_4 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_cst : Ref sig .tc := ⟨.hbm, 88, rfl⟩
abbrev main_call2_v14 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_cst_5 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_c_6 : Ref sig .tc := ⟨.hbm, 98, rfl⟩
abbrev main_v38 : Ref sig .tc := ⟨.hbm, 99, rfl⟩
abbrev main_v39 : Ref sig .tc := ⟨.hbm, 100, rfl⟩
abbrev main_call3_cst : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_v6 : Ref sig .tc := ⟨.hbm, 108, rfl⟩
abbrev main_call3_v7 : Ref sig .tc := ⟨.hbm, 109, rfl⟩
abbrev main_call3_v8 : Ref sig .tc := ⟨.hbm, 110, rfl⟩
abbrev main_call3_v9 : Ref sig .tc := ⟨.hbm, 111, rfl⟩
abbrev main_call3_v10 : Ref sig .tc := ⟨.hbm, 112, rfl⟩
abbrev main_call3_v11 : Ref sig .tc := ⟨.hbm, 113, rfl⟩
abbrev main_v40 : Ref sig .tc := ⟨.hbm, 114, rfl⟩
abbrev main_cst_7 : Ref sig .tc := ⟨.hbm, 115, rfl⟩
abbrev main_v41 : Ref sig .tc := ⟨.hbm, 116, rfl⟩
abbrev main_cst_8 : Ref sig .tc := ⟨.hbm, 117, rfl⟩
abbrev main_call4_v0 : Ref sig .tc := ⟨.hbm, 118, rfl⟩
abbrev main_call4_v1 : Ref sig .tc := ⟨.hbm, 119, rfl⟩
abbrev main_v42 : Ref sig .tc := ⟨.hbm, 120, rfl⟩
abbrev main_cst_9 : Ref sig .tc := ⟨.hbm, 121, rfl⟩
abbrev main_v43 : Ref sig .tc := ⟨.hbm, 122, rfl⟩
abbrev main_cst_10 : Ref sig .tc := ⟨.hbm, 123, rfl⟩
abbrev main_v44 : Ref sig .tc := ⟨.hbm, 124, rfl⟩
abbrev main_v45 : Ref sig .tc := ⟨.hbm, 125, rfl⟩
abbrev main_cst_11 : Ref sig .tc := ⟨.hbm, 126, rfl⟩
abbrev main_call5_v0 : Ref sig .tc := ⟨.hbm, 127, rfl⟩
abbrev main_v46 : Ref sig .tc := ⟨.hbm, 128, rfl⟩
abbrev main_cst_12 : Ref sig .tc := ⟨.hbm, 129, rfl⟩
abbrev main_v47 : Ref sig .tc := ⟨.hbm, 130, rfl⟩
abbrev main_cst_13 : Ref sig .tc := ⟨.hbm, 131, rfl⟩
abbrev main_v48 : Ref sig .tc := ⟨.hbm, 132, rfl⟩
abbrev main_v49 : Ref sig .tc := ⟨.hbm, 133, rfl⟩
abbrev main_c_14 : Ref sig .tc := ⟨.hbm, 134, rfl⟩
abbrev main_v50 : Ref sig .tc := ⟨.hbm, 135, rfl⟩
abbrev main_cst_15 : Ref sig .tc := ⟨.hbm, 136, rfl⟩
abbrev main_call6_v0 : Ref sig .tc := ⟨.hbm, 137, rfl⟩
abbrev main_v51 : Ref sig .tc := ⟨.hbm, 138, rfl⟩
abbrev main_cst_16 : Ref sig .tc := ⟨.hbm, 139, rfl⟩
abbrev main_v52 : Ref sig .tc := ⟨.hbm, 140, rfl⟩

abbrev nD : Nat := 1
abbrev τ : Topo := Topo.v7x

variable {F : FTy → Type} [FloatOps F]

class Facts₀ : Prop where
  transposes_S16384x2048_S2048x16384_1_0 : S16384x2048.Transposes [1, 0] S2048x16384
  bcast_S_S256x16384 : S_.BroadcastsInDim S256x16384 (![] : Fin 0 → Fin S256x16384.rank)
  reducesTo_S256x2048_S256_d1 : S256x2048.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x2048_0_1 : S256x1.BroadcastsInDim S256x2048 (![0, 1] : Fin 2 → Fin S256x2048.rank)
  shapeCasts_S256x1_S256x1x1 : S256x1.ShapeCasts S256x1x1
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  bcast_S_S256 : S_.BroadcastsInDim S256 (![] : Fin 0 → Fin S256.rank)
  bcast_S_S256x64 : S_.BroadcastsInDim S256x64 (![] : Fin 0 → Fin S256x64.rank)
  bcast_S256x64_S256x64x1_0_1 : S256x64.BroadcastsInDim S256x64x1 (![0, 1] : Fin 2 → Fin S256x64x1.rank)
  shapeCasts_S256x64_S256x64x1 : S256x64.ShapeCasts S256x64x1
  bcast_S_S256x64x1 : S_.BroadcastsInDim S256x64x1 (![] : Fin 0 → Fin S256x64x1.rank)
  bcast_S1x1x1_S256x64x1_0_1_2 : S1x1x1.BroadcastsInDim S256x64x1 (![0, 1, 2] : Fin 3 → Fin S256x64x1.rank)
  reducesTo_S256x64x1_S256x64_d2 : S256x64x1.ReducesTo [2] S256x64
  bcast_S256x1_S256x64_0_1 : S256x1.BroadcastsInDim S256x64 (![0, 1] : Fin 2 → Fin S256x64.rank)
  natLt_1_32 : 1 < 32
  reducesTo_S256x64_S_d0_1 : S256x64.ReducesTo [0, 1] S_
  reducesTo_S16384x2048_S16384_d1 : S16384x2048.ReducesTo [1] S16384
  bcast_S_S16384 : S_.BroadcastsInDim S16384 (![] : Fin 0 → Fin S16384.rank)
  reducesTo_S16384_S_d0 : S16384.ReducesTo [0] S_
  dot_S256x2048_S2048x16384_S256x16384_1_0_0_1_n_n_wf : DotDims.WF S256x2048 S2048x16384 S256x16384 [1] [0] [0] [1] [] []
  gather_S256x16384_S256x1x1_S256x1_n_1_0_0_1_2_11_wf : GatherDims.WF S256x16384 S256x1x1 S256x1 [] [1] [0] [1] [0] 2 ![1, 1]
  gather_S16384x2048_S256x1_S256x2048_1_0_n_n_0_1_12048_wf : GatherDims.WF S16384x2048 S256x1 S256x2048 [1] [0] [] [0] [] 1 ![1, 2048]
  gather_S16384_S256x64x1_S256x64_n_0_n_n_0_2_1_wf : GatherDims.WF S16384 S256x64x1 S256x64 [] [0] [] [0] [] 2 ![1]
  gather_S256x16384_S256x64x1_S256x64_n_1_0_0_1_2_11_wf : GatherDims.WF S256x16384 S256x64x1 S256x64 [] [1] [0] [1] [0] 2 ![1, 1]

variable [Facts₀]

def dot_S256x2048_S2048x16384_S256x16384_1_0_0_1_n_n : DotDims S256x2048 S2048x16384 S256x16384 where
  lhsContracting := [1]
  rhsContracting := [0]
  lhsNonContracting := [0]
  rhsNonContracting := [1]
  lhsBatch := []
  rhsBatch := []
  wf := dot_S256x2048_S2048x16384_S256x16384_1_0_0_1_n_n_wf
def gather_S256x16384_S256x1x1_S256x1_n_1_0_0_1_2_11 : GatherDims S256x16384 S256x1x1 S256x1 where
  offsetDims := []
  collapsedSliceDims := [1]
  operandBatchingDims := [0]
  startIndicesBatchingDims := [0]
  startIndexMap := [1]
  indexVectorDim := 2
  sliceSizes := ![1, 1]
  wf := gather_S256x16384_S256x1x1_S256x1_n_1_0_0_1_2_11_wf
def gather_S16384x2048_S256x1_S256x2048_1_0_n_n_0_1_12048 : GatherDims S16384x2048 S256x1 S256x2048 where
  offsetDims := [1]
  collapsedSliceDims := [0]
  operandBatchingDims := []
  startIndicesBatchingDims := []
  startIndexMap := [0]
  indexVectorDim := 1
  sliceSizes := ![1, 2048]
  wf := gather_S16384x2048_S256x1_S256x2048_1_0_n_n_0_1_12048_wf
def gather_S16384_S256x64x1_S256x64_n_0_n_n_0_2_1 : GatherDims S16384 S256x64x1 S256x64 where
  offsetDims := []
  collapsedSliceDims := [0]
  operandBatchingDims := []
  startIndicesBatchingDims := []
  startIndexMap := [0]
  indexVectorDim := 2
  sliceSizes := ![1]
  wf := gather_S16384_S256x64x1_S256x64_n_0_n_n_0_2_1_wf
def gather_S256x16384_S256x64x1_S256x64_n_1_0_0_1_2_11 : GatherDims S256x16384 S256x64x1 S256x64 where
  offsetDims := []
  collapsedSliceDims := [1]
  operandBatchingDims := [0]
  startIndicesBatchingDims := [0]
  startIndexMap := [1]
  indexVectorDim := 2
  sliceSizes := ![1, 1]
  wf := gather_S256x16384_S256x64x1_S256x64_n_1_0_0_1_2_11_wf

class Facts : Prop extends Facts₀ where

variable [Facts]
-- ==== Proof.KIData.lean ====
/-
  The proof data of the idealized kernel program's one pallas_call, shared by the frame run and by the value
  lemmas: what each TensorCore buffer holds when the region is entered (after the host lines that compute the row
  norms, the gathered target rows and their concatenation with the inputs), a window's block at a grid point, and
  what the body leaves in each output window's staging buffer — the row sums of the streamed tile of the exemplar
  memory, and the two halves of ONE matrix product of the concatenated left operand with that tile (the top half
  scaled by the temperature 1.0).  Everything is stated at any float instance.
-/
import proofs.«416849_j74483322847821_3_alg».proof.Proof.Gen.KernelIdeal.Launch
import proofs.«416849_j74483322847821_3_alg».proof.Proof.Gen.KernelIdeal.Skeleton
import proofs.«416849_j74483322847821_3_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s TensorCore buffer contents when the region is entered: after the four stretches of host lines before
    it (the row norms, the normalised inputs, the gathered target rows, the concatenated left operand). -/
abbrev V0 (c : Dev nD) : Valuation τ sig (Elt F) :=
  StableHlo.after (List.flatten [hostOps0, hostOps0_1, hostOps0_2, hostOps0_3]) (fun b => m (c, b))
/-- The same read at a TensorCore reference. -/
abbrev V (c : Dev nD) (b : Ref sig .tc) : Buf (Elt F) ((c : Thread nD τ).loc b) := V0 m c (Proc.devRef .tc b)

/-- The twelve stretches of host lines after the region, in order. -/
abbrev tailOps : List (List (HloOp τ sig (Elt F))) :=
  [hostOps1, hostOps1_1, hostOps1_2, hostOps1_3, hostOps1_4, hostOps1_5, hostOps1_6, hostOps1_7, hostOps1_8,
   hostOps1_9, hostOps1_10, hostOps1_11]

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The whole-buffer rectangles the body loads and stores through. -/
abbrev rLhs : Rect S512x2048 := Rect.unit (s := S512x2048) ![0, 0] S512x2048.size inb_S512x2048_S512x2048_0_0
abbrev rTile : Rect S2048x2048 := Rect.unit (s := S2048x2048) ![0, 0] S2048x2048.size inb_S2048x2048_S2048x2048_0_0
abbrev rHalf : Rect S256x2048 := Rect.unit (s := S256x2048) ![0, 0] S256x2048.size inb_S256x2048_S256x2048_0_0
abbrev rCol : Rect S2048x1 := Rect.unit (s := S2048x1) ![0, 0] S2048x1.size inb_S2048x1_S2048x1_0_0

/-- Window 2's staging buffer after the body (the block of `outputs`): the top half of the product, times 1.0. -/
def out0_2 (x0 : Vec F S512x2048 .f32) (x1 : Vec F S2048x2048 .f32) : Vec F S256x2048 .f32 :=
  View.canon [⟨rHalf, k0_pay3 (View.ld x1 rTile) (View.ld x0 rLhs)⟩]
/-- Window 3's staging buffer after the body (the block of the target rows' similarities): the bottom half. -/
def out0_3 (x0 : Vec F S512x2048 .f32) (x1 : Vec F S2048x2048 .f32) : Vec F S256x2048 .f32 :=
  View.canon [⟨rHalf, k0_pay4 (View.ld x1 rTile) (View.ld x0 rLhs)⟩]
/-- Window 4's staging buffer after the body: the tile's row sums, as a column. -/
def out0_4 (x1 : Vec F S2048x2048 .f32) : Vec F S2048x1 .f32 :=
  View.canon [⟨rCol, k0_pay1 (View.ld x1 rTile)⟩]

/-- The proof data of the one pipeline on core `c`: the arrays as the region finds them; after the body at point `t`
    each input's buffer at its block and each output's at the body's result on the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
    | ⟨4, _⟩ => out0_4 (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = out0_2 (iblk m c 0 t) (iblk m c 1 t) := by dsimp only [dats]
theorem after0_3 (c : Dev nD) (t : Fin cfg0.N) :
    (dats m 0 c).after 3 t = out0_3 (iblk m c 0 t) (iblk m c 1 t) := by dsimp only [dats]
theorem after0_4 (c : Dev nD) (t : Fin cfg0.N) : (dats m 0 c).after 4 t = out0_4 (iblk m c 1 t) := by dsimp only [dats]

end Cert.KernelIdeal.Hand

end
-- ==== Proof.KIHost.lean ====
/-
  The idealized kernel program's @main around its one pallas_call: the host lines before the region, the region, the
  host lines after it.  @main reduces to the region continued by the later lines, at the contents the earlier lines
  leave; every later line runs within the pipeline's arrays and the buffers that bypass the region, allocates nothing
  and writes one buffer, which is neither an argument of @main nor an array of the pipeline; so each argument ends as it
  was launched — the five that no window stages because no line writes them, the exemplar memory (input window 1's
  array) because an input's array is never written back.  Everything is stated at any float instance.
-/
import proofs.«416849_j74483322847821_3_alg».proof.Proof.KIData

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The host lines allocate nothing -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor

/-! ## @main around the region -/

/-- The four stretches before the region touch TensorCore references only and allocate nothing. -/
theorem pre_sub : ([hostOps0, hostOps0_1, hostOps0_2, hostOps0_3] : List (List (HloOp τ sig (Elt F)))).Forall
    fun ops => ops.Forall fun op => op.bufs ⊆ StableHlo.tcRefs τ sig :=
  ⟨hostOps0_sub, hostOps0_1_sub, hostOps0_2_sub, hostOps0_3_sub⟩
theorem pre_fresh : ([hostOps0, hostOps0_1, hostOps0_2, hostOps0_3] : List (List (HloOp τ sig (Elt F)))).Forall
    fun ops => ops.Forall fun op => op.fresh = ∅ :=
  ⟨hostOps0_fresh, hostOps0_1_fresh, hostOps0_2_fresh, hostOps0_3_fresh⟩

/-- @main is the four stretches of host lines, the region, and the twelve stretches after it: holding the unscoped
    buffers as launched it reduces to the region CONTINUED BY the later lines, holding them at the contents the earlier
    lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0, hostOps0_1, hostOps0_2, hostOps0_3] tailOps pre_sub pre_fresh main_chain

/-! ## What the host lines write -/

/-- @main's six arguments. -/
abbrev args : List (Ref sig .tc) := [main_arg0, main_arg1, main_arg2, main_arg3, main_arg4, main_arg5]
/-- The arguments and the arrays of the pipeline's five windows (the concatenated left operand, the exemplar memory —
    an argument —, and the three results). -/
abbrev kept : List (Ref sig .tc) := [main_arg0, main_arg1, main_arg2, main_arg3, main_arg4, main_arg5, main_v6, main_v7_0, main_v7_1, main_v7_2]

/-- Each line of the stretch writes exactly one buffer, and that buffer is none of `K`. -/
def WritesOff (K : List (Ref sig .tc)) (ops : List (HloOp τ sig (Elt F))) : Prop :=
  ops.Forall fun op => ∃ y : Ref sig .tc, op.writes = {Proc.devRef .tc y} ∧ y ∉ K

/-- Such a stretch writes no buffer of `K`. -/
theorem WritesOff.not_mem {K : List (Ref sig .tc)} {ops : List (HloOp τ sig (Elt F))} (h : WritesOff K ops)
    {b : Ref sig .tc} (hb : b ∈ K) : ∀ op ∈ ops, Proc.devRef .tc b ∉ op.writes := fun op hop => by
  obtain ⟨y, hw, hy⟩ := List.forall_iff_forall_mem.mp h op hop
  rw [hw, Finset.mem_singleton]
  exact StableHlo.devRef_ne_of_ne fun e => hy (e ▸ hb)

/-- A fact of every line of every stretch, read by membership. -/
theorem forall_mem₂ {α : Type} {p : α → Prop} {L : List (List α)} (h : L.Forall fun l => l.Forall p) :
    ∀ l ∈ L, ∀ x ∈ l, p x :=
  fun l hl x hx => List.forall_iff_forall_mem.mp (List.forall_iff_forall_mem.mp h l hl) x hx

-- the lines before the region write no argument (they do write the concatenated left operand, window 0's array)
theorem hostOps0_writes : WritesOff args (hostOps0 : List (HloOp τ sig (Elt F))) := by
  unfold WritesOff; simp only [List.Forall]; repeat' apply And.intro
  all_goals exact ⟨_, rfl, by decide⟩
theorem hostOps0_1_writes : WritesOff args (hostOps0_1 : List (HloOp τ sig (Elt F))) := by
  unfold WritesOff; simp only [List.Forall]; repeat' apply And.intro
  all_goals exact ⟨_, rfl, by decide⟩
theorem hostOps0_2_writes : WritesOff args (hostOps0_2 : List (HloOp τ sig (Elt F))) := by
  unfold WritesOff; simp only [List.Forall]; repeat' apply And.intro
  all_goals exact ⟨_, rfl, by decide⟩
theorem hostOps0_3_writes : WritesOff args (hostOps0_3 : List (HloOp τ sig (Elt F))) := by
  unfold WritesOff; simp only [List.Forall]; repeat' apply And.intro
  all_goals exact ⟨_, rfl, by decide⟩
-- the lines after it write neither an argument nor an array of the pipeline
theorem hostOps1_writes : WritesOff kept (hostOps1 : List (HloOp τ sig (Elt F))) := by
  unfold WritesOff; simp only [List.Forall]; repeat' apply And.intro
  all_goals exact ⟨_, rfl, by decide⟩
theorem hostOps1_1_writes : WritesOff kept (hostOps1_1 : List (HloOp τ sig (Elt F))) := by
  unfold WritesOff; simp only [List.Forall]; repeat' apply And.intro
  all_goals exact ⟨_, rfl, by decide⟩
theorem hostOps1_2_writes : WritesOff kept (hostOps1_2 : List (HloOp τ sig (Elt F))) := by
  unfold WritesOff; simp only [List.Forall]; repeat' apply And.intro
  all_goals exact ⟨_, rfl, by decide⟩
theorem hostOps1_3_writes : WritesOff kept (hostOps1_3 : List (HloOp τ sig (Elt F))) := by
  unfold WritesOff; simp only [List.Forall]; repeat' apply And.intro
  all_goals exact ⟨_, rfl, by decide⟩
theorem hostOps1_4_writes : WritesOff kept (hostOps1_4 : List (HloOp τ sig (Elt F))) := by
  unfold WritesOff; simp only [List.Forall]; repeat' apply And.intro
  all_goals exact ⟨_, rfl, by decide⟩
theorem hostOps1_5_writes : WritesOff kept (hostOps1_5 : List (HloOp τ sig (Elt F))) := by
  unfold WritesOff; simp only [List.Forall]; repeat' apply And.intro
  all_goals exact ⟨_, rfl, by decide⟩
theorem hostOps1_6_writes : WritesOff kept (hostOps1_6 : List (HloOp τ sig (Elt F))) := by
  unfold WritesOff; simp only [List.Forall]; repeat' apply And.intro
  all_goals exact ⟨_, rfl, by decide⟩
theorem hostOps1_7_writes : WritesOff kept (hostOps1_7 : List (HloOp τ sig (Elt F))) := by
  unfold WritesOff; simp only [List.Forall]; repeat' apply And.intro
  all_goals exact ⟨_, rfl, by decide⟩
theorem hostOps1_8_writes : WritesOff kept (hostOps1_8 : List (HloOp τ sig (Elt F))) := by
  unfold WritesOff; simp only [List.Forall]; repeat' apply And.intro
  all_goals exact ⟨_, rfl, by decide⟩
theorem hostOps1_9_writes : WritesOff kept (hostOps1_9 : List (HloOp τ sig (Elt F))) := by
  unfold WritesOff; simp only [List.Forall]; repeat' apply And.intro
  all_goals exact ⟨_, rfl, by decide⟩
theorem hostOps1_10_writes : WritesOff kept (hostOps1_10 : List (HloOp τ sig (Elt F))) := by
  unfold WritesOff; simp only [List.Forall]; repeat' apply And.intro
  all_goals exact ⟨_, rfl, by decide⟩
theorem hostOps1_11_writes : WritesOff kept (hostOps1_11 : List (HloOp τ sig (Elt F))) := by
  unfold WritesOff; simp only [List.Forall]; repeat' apply And.intro
  all_goals exact ⟨_, rfl, by decide⟩

theorem pre_writes : ([hostOps0, hostOps0_1, hostOps0_2, hostOps0_3] : List (List (HloOp τ sig (Elt F)))).Forall (WritesOff args) :=
  ⟨hostOps0_writes, hostOps0_1_writes, hostOps0_2_writes, hostOps0_3_writes⟩

/-! ## The lines after the region -/

theorem tail_sub : (tailOps : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub⟩
theorem tail_fresh : (tailOps : List (List (HloOp τ sig (Elt F)))).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh⟩
theorem tail_writes : (tailOps : List (List (HloOp τ sig (Elt F)))).Forall (WritesOff kept) :=
  ⟨hostOps1_writes, hostOps1_1_writes, hostOps1_2_writes, hostOps1_3_writes, hostOps1_4_writes, hostOps1_5_writes, hostOps1_6_writes, hostOps1_7_writes, hostOps1_8_writes, hostOps1_9_writes, hostOps1_10_writes, hostOps1_11_writes⟩

/-- The lines after the region touch the pipeline's arrays and the bypassing buffers only: each operation's buffers are
    unscoped TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (forall_mem₂ tail_sub ops hops op hop)
/-- They allocate nothing. -/
theorem sfx_fresh : ∀ ops ∈ (tailOps : List (List (HloOp τ sig (Elt F)))), ∀ op ∈ ops, op.fresh = ∅ :=
  forall_mem₂ tail_fresh
/-- And write no array of the pipeline: every array is among the kept buffers. -/
theorem sfx_keeps : ∀ ops ∈ (tailOps : List (List (HloOp τ sig (Elt F)))), ∀ op ∈ ops,
    ∀ w, Proc.devRef .tc (Pipeline.arrRef spec0 w) ∉ op.writes :=
  fun ops hops op hop w => (List.forall_iff_forall_mem.mp tail_writes ops hops).not_mem ((by decide : ∀ w, Pipeline.arrRef spec0 w ∈ kept) w) op hop

/-! ## The arguments when the region is entered, and after the later lines -/

/-- No host line before the region writes an argument: the region finds it as launched. -/
theorem V_of_arg (c : Dev nD) {b : Ref sig .tc} (hb : b ∈ args) : V m c b = m ((c : Thread nD τ).loc b) :=
  StableHlo.after_of_forall_not_mem (b := Proc.devRef .tc b) _ _ fun op hop => by
    obtain ⟨ops, hops, hop⟩ := List.mem_flatten.mp hop
    exact (List.forall_iff_forall_mem.mp pre_writes ops hops).not_mem hb op hop

theorem V_main_arg0 (c : Dev nD) : V m c main_arg0 = m ((c : Thread nD τ).loc main_arg0) := V_of_arg m c (by decide)
theorem V_main_arg1 (c : Dev nD) : V m c main_arg1 = m ((c : Thread nD τ).loc main_arg1) := V_of_arg m c (by decide)
theorem V_main_arg2 (c : Dev nD) : V m c main_arg2 = m ((c : Thread nD τ).loc main_arg2) := V_of_arg m c (by decide)
theorem V_main_arg3 (c : Dev nD) : V m c main_arg3 = m ((c : Thread nD τ).loc main_arg3) := V_of_arg m c (by decide)
theorem V_main_arg4 (c : Dev nD) : V m c main_arg4 = m ((c : Thread nD τ).loc main_arg4) := V_of_arg m c (by decide)
theorem V_main_arg5 (c : Dev nD) : V m c main_arg5 = m ((c : Thread nD τ).loc main_arg5) := V_of_arg m c (by decide)

/-- A kept buffer that is no array of the pipeline holds after the later lines what it held when the region was
    entered: no later line writes it, and the region's exit contents differ from the entry contents at the arrays only. -/
theorem W_of_kept (dats : (p : Fin 1) → (c : Dev nD) → Dat τ (Elt F) Unit ℕ (UR sig nD τ) ℕ (cfgs p) c) (c : Dev nD)
    {b : Ref sig .tc} (hb : b ∈ kept) (hne : ∀ w, Pipeline.arrRef spec0 w ≠ b) :
    Pipeline.afterTail₀ cfgs dats 0 (V0 m) tailOps c b = V m c b := by
  have hw : ∀ op ∈ (tailOps : List (List (HloOp τ sig (Elt F)))).flatten, Proc.devRef .tc b ∉ op.writes := fun op hop => by
    obtain ⟨ops, hops, hop⟩ := List.mem_flatten.mp hop
    exact (List.forall_iff_forall_mem.mp tail_writes ops hops).not_mem hb op hop
  unfold Pipeline.afterTail₀
  rw [StableHlo.after_of_forall_not_mem (b := Proc.devRef .tc b) _ _ hw, Pipeline.withArrays_of_ne _ c (V0 m c) _ b hne]

/-- No host line after the region writes `main_arg0`, and no window stages it: it ends as launched.  Likewise the next four. -/
theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) :=
  (W_of_kept m dats c (by decide) (by decide)).trans (V_main_arg0 m c)
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  (W_of_kept m dats c (by decide) (by decide)).trans (V_main_arg1 m c)
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  (W_of_kept m dats c (by decide) (by decide)).trans (V_main_arg2 m c)
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) :=
  (W_of_kept m dats c (by decide) (by decide)).trans (V_main_arg3 m c)
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) :=
  (W_of_kept m dats c (by decide) (by decide)).trans (V_main_arg4 m c)

/-! ## The frame claim's post from the frame run's -/

/-- THE FRAME from a frame run: for any proof data whose arrays are the region-entry contents (`hA`), a run to the
    library's frame post read at the six arguments is the frame claim's post.  The five arguments no window stages are
    among the buffers that bypass the region (the post's second clause), each then as the later and the earlier lines
    leave it; the exemplar memory is input window 1's array (the post's first clause), which is never written back, so
    it holds what the region found, which is what was launched. -/
theorem frame_of (ρ : Dev nD → PrngReg) (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).1 1).trans (((dats 0 c).arrAt_in 1 rfl _).trans ((hA c 1).trans (V_main_arg5 m c)))⟩) h

end Cert.KernelIdeal.Hand

end
-- ==== Proof.KIBody.lean ====
/-
  The body of the idealized kernel program's one pallas_call, at every grid point.  Each input window's current
  staging buffer holds its block there, whether or not the block was fetched at that point (the left operand is
  fetched once and stays; a tile of the exemplar memory is fetched at every point).  On such buffers the body
  stores, into each output window's staging buffer, one value covering the whole buffer: the tile's row sums as a
  column, and the top half (times 1.0) and the bottom half of ONE matrix product of the left operand with the tile.
  What it loads from an output buffer before storing there is never used.  Hence the library's body obligation for
  the proof data of the region.  Everything is stated at any float instance.
-/
import proofs.«416849_j74483322847821_3_alg».proof.Proof.KIData
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The input windows' buffers before the body -/

/-- The left operand's current staging buffer holds its one block at every point: fetched at the first point, and
    at a later point, where nothing is fetched, the block index has not moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- The exemplar memory's current staging buffer holds the point's tile. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-! ## Each output buffer is covered by its one store -/

/-- A store through the whole-buffer rectangle of a half of the product covers that buffer. -/
theorem cover_half (p : Vec F S256x2048 .f32) (y : S256x2048.Idx) :
    ∃ pc ∈ ([⟨rHalf, p⟩] : List (View.Piece (Elt F) S256x2048 .f32)), y ∈ pc.1.set :=
  View.cover_of_tiled [⟨rHalf, p⟩] S256x2048.size (by rfl) y

/-- A store through the whole-buffer rectangle of the column of row sums covers that buffer. -/
theorem cover_col (p : Vec F S2048x1 .f32) (y : S2048x1.Idx) :
    ∃ pc ∈ ([⟨rCol, p⟩] : List (View.Piece (Elt F) S2048x1 .f32)), y ∈ pc.1.set :=
  View.cover_of_tiled [⟨rCol, p⟩] S2048x1.size (by rfl) y

/-! ## The body's triple -/

/-- The body on whole staging memrefs — the left operand's reading `x0`, the tile's reading `x1`, each output's
    holding anything — runs to the continuation with the inputs as they were and the outputs at the row sums of
    the tile and the two halves of the product.  The value loaded from an output buffer before the store into it is
    never used, so what that buffer held does not matter. -/
theorem sound_kernel (c : Dev nD) (E : Set ℕ) (i : grid0.Coords)
    (arg1 : Memref sig .tc .vmem S512x2048 .f32) (harg1 : arg1.IsWhole)
    (arg2 : Memref sig .tc .vmem S2048x2048 .f32) (harg2 : arg2.IsWhole)
    (arg3 : Memref sig .tc .vmem S256x2048 .f32) (harg3 : arg3.IsWhole)
    (arg4 : Memref sig .tc .vmem S256x2048 .f32) (harg4 : arg4.IsWhole)
    (arg5 : Memref sig .tc .vmem S2048x1 .f32) (harg5 : arg5.IsWhole)
    (x0 : Vec F S512x2048 .f32) (x1 : Vec F S2048x2048 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x1)) -∗ K ⟨⟩))
      ⊢ wp frame (wpE (defs₀ (F := F)) Variants.none c none) E
          (cc0__mm_kernel i arg1 harg1 arg2 harg2 arg3 harg3 arg4 harg4 arg5 harg5) K := by
  simp only [cc0__mm_kernel_eq_skeleton]; unfold cc0__mm_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_half _)
  isplitl [H3]
  · iexists _; isplitr
    swap; · iexact H3
    ipureintro
    exact View.read_writes_eq_canon _ _ _ (cover_half _)
  iexists _; isplitr
  swap; · iexact H4
  ipureintro
  exact View.read_writes_eq_canon _ _ _ (cover_col _)

/-! ## The body obligation, at a generic point -/

/-- What the body is called with at point `t`: the invariant, what the core owes, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns: the same invariant and debt, and each buffer at what the body leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, the outputs' hold something, so the body's triple
    applies; the invariant and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIFrame.lean ====
/-
  The frame of the idealized kernel program: from any memory, every weakly fair execution of @main — the host lines
  that prepare the stacked left operand, the one pallas_call over its eight grid points, the hundred host lines that
  turn its results into the loss — terminates without a fault.  Afterwards each array of the pipeline holds what the
  proof data computes for it (an output array what the grid points wrote back block by block, an input array what
  the region found), every other buffer what the later host lines leave, and so the six argument arrays end as
  they were launched.
-/
import proofs.«416849_j74483322847821_3_alg».proof.Proof.KIHost
import proofs.«416849_j74483322847821_3_alg».proof.Proof.KIBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- The run: @main terminates, every pipeline array at what the proof data computes from the grid points'
    write-backs and every other unscoped buffer as the host lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: @main terminates without a fault and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.KSpec.lean ====
/-
  The quantities the idealized kernel program computes on the host around its one pallas_call, each as a named
  function of the arrays it is computed from (at any float instance, spelt as the program's own operations), and
  what the pallas_call leaves in its three result arrays, index by index over the extended reals.

  Host side: the inputs divided by their row norms (the norm floored at the small constant); the target rows of the
  exemplar memory, a row whose (wrapped) target is out of range being the fill value; the inputs stacked on those
  rows; each row's threshold, the dot product of its normalised input with its target row, minus the margin; the
  cluster ids of the negative pairs, an id whose (wrapped) index is out of range being the fill value.
  The pallas_call: the stacked left operand times the transposed exemplar memory, its top half (scaled by 1.0) the
  outputs and its bottom half the target rows' similarities, and the row sums of the exemplar memory.
-/
import proofs.«416849_j74483322847821_3_alg».proof.Proof.Gen.KernelIdeal
import Idealize.ShloMosaic.Lib.ValueIdx
import Idealize.ShloMosaic.PureOps.Ideal

noncomputable section

namespace Cert.KernelIdeal.Spec

open Cert.KernelIdeal Cert.KernelIdeal.Gen Idealize.ShloMosaic Idealize.ShloMosaic.ValueIdx

section Host

variable {F : FTy → Type} [FloatOps F]

/-- The inputs, each row divided by the larger of its Euclidean norm and the small constant. -/
def normIn (x0 : (⟨S256x2048, .f32⟩ : BufTy).Contents (Elt F)) : (⟨S256x2048, .f32⟩ : BufTy).Contents (Elt F) :=
  Host.divf x0 (broadcastInDim S256x2048 ![0, 1] bcast_S256x1_S256x2048_0_1
    (maximumf
      (Host.sqrt (broadcastInDim S256x1 ![0] bcast_S256_S256x1_0
        (Host.reduceAdd (mulf x0 x0) (constant S_ .f32 0x00000000#32) reducesTo_S256x2048_S256_d1 h_S_)))
      (broadcastInDim S256x1 ![] bcast_S_S256x1 (constant S_ .f32 0x2B8CBCCC#32))))

/-- A target with 16384 added when it is negative. -/
def wrapTargets (x1 : (⟨S256, .i32⟩ : BufTy).Contents (Elt F)) : (⟨S256, .i32⟩ : BufTy).Contents (Elt F) :=
  select (cmpi .slt x1 (broadcastInDim S256 ![] bcast_S_S256 (constantI S_ 32 0#32)))
    (addi x1 (broadcastInDim S256 ![] bcast_S_S256 (constantI S_ 32 16384#32))) x1

/-- The wrapped targets as a column of start indices. -/
def targetIdx (x1 : (⟨S256, .i32⟩ : BufTy).Contents (Elt F)) : (⟨S256x1, .i32⟩ : BufTy).Contents (Elt F) :=
  broadcastInDim S256x1 ![0] bcast_S256_S256x1_0 (wrapTargets x1)

/-- Per row: the wrapped target lies in [0, 16383]. -/
def targetInb (x1 : (⟨S256, .i32⟩ : BufTy).Contents (Elt F)) : (⟨S256, .i1⟩ : BufTy).Contents (Elt F) :=
  Host.reduce IntOp.andi
    (andi (cmpi .sge (targetIdx x1) (broadcastInDim S256x1 ![] bcast_S_S256x1 (constantI S_ 32 0#32)))
      (cmpi .sle (targetIdx x1) (broadcastInDim S256x1 ![0, 1] bcast_S1x1_S256x1_0_1
        (broadcastInDim S1x1 ![1] bcast_S1_S1x1_1 (constantI S1 32 16383#32)))))
    (constantI S_ 1 1#1) reducesTo_S256x1_S256_d1 h_S_

/-- The target rows of the exemplar memory; a row whose wrapped target is out of range is the fill value. -/
def takeRows (x1 : (⟨S256, .i32⟩ : BufTy).Contents (Elt F)) (x5 : (⟨S16384x2048, .f32⟩ : BufTy).Contents (Elt F)) : (⟨S256x2048, .f32⟩ : BufTy).Contents (Elt F) :=
  select (broadcastInDim S256x2048 ![0] bcast_S256_S256x2048_0 (targetInb x1))
    (Host.gather gather_S16384x2048_S256x1_S256x2048_1_0_n_n_0_1_12048 x5 (targetIdx x1))
    (broadcastInDim S256x2048 ![] bcast_S_S256x2048 (constant S_ .f32 0x7FC00000#32))

/-- The inputs stacked on the target rows: the pallas_call's left operand. -/
def stacked (x0 vt : (⟨S256x2048, .f32⟩ : BufTy).Contents (Elt F)) : (⟨S512x2048, .f32⟩ : BufTy).Contents (Elt F) :=
  concatenate S512x2048 0 [⟨S256x2048, x0⟩, ⟨S256x2048, vt⟩] concatenates_S256x2048_S256x2048_S512x2048_d0

/-- Each row's threshold: the dot product of its normalised input with its target row, minus the margin. -/
def thresholds (ni vt : (⟨S256x2048, .f32⟩ : BufTy).Contents (Elt F)) : (⟨S256x1, .f32⟩ : BufTy).Contents (Elt F) :=
  subf (broadcastInDim S256x1 ![0] bcast_S256_S256x1_0
      (Host.reduceAdd (mulf ni vt) (constant S_ .f32 0x00000000#32) reducesTo_S256x2048_S256_d1 h_S_))
    (broadcastInDim S256x1 ![] bcast_S_S256x1 (constant S_ .f32 0x3E99999A#32))

/-- A negative-pair index with 16384 added when it is negative. -/
def wrapPairs (x2 : (⟨S256x64, .i32⟩ : BufTy).Contents (Elt F)) : (⟨S256x64, .i32⟩ : BufTy).Contents (Elt F) :=
  select (cmpi .slt x2 (broadcastInDim S256x64 ![] bcast_S_S256x64 (constantI S_ 32 0#32)))
    (addi x2 (broadcastInDim S256x64 ![] bcast_S_S256x64 (constantI S_ 32 16384#32))) x2

/-- The wrapped negative-pair indices as start indices. -/
def pairIdx (x2 : (⟨S256x64, .i32⟩ : BufTy).Contents (Elt F)) : (⟨S256x64x1, .i32⟩ : BufTy).Contents (Elt F) :=
  broadcastInDim S256x64x1 ![0, 1] bcast_S256x64_S256x64x1_0_1 (wrapPairs x2)

/-- Per entry: the wrapped negative-pair index lies in [0, 16383]. -/
def pairInb (x2 : (⟨S256x64, .i32⟩ : BufTy).Contents (Elt F)) : (⟨S256x64, .i1⟩ : BufTy).Contents (Elt F) :=
  Host.reduce IntOp.andi
    (andi (cmpi .sge (pairIdx x2) (broadcastInDim S256x64x1 ![] bcast_S_S256x64x1 (constantI S_ 32 0#32)))
      (cmpi .sle (pairIdx x2) (broadcastInDim S256x64x1 ![0, 1, 2] bcast_S1x1x1_S256x64x1_0_1_2
        (broadcastInDim S1x1x1 ![2] bcast_S1_S1x1x1_2 (constantI S1 32 16383#32)))))
    (constantI S_ 1 1#1) reducesTo_S256x64x1_S256x64_d2 h_S_

/-- The cluster ids of the negative pairs; an entry whose wrapped index is out of range is the least integer. -/
def clusterIds (x2 : (⟨S256x64, .i32⟩ : BufTy).Contents (Elt F)) (x4 : (⟨S16384, .i32⟩ : BufTy).Contents (Elt F)) : (⟨S256x64, .i32⟩ : BufTy).Contents (Elt F) :=
  select (pairInb x2) (Host.gather gather_S16384_S256x64x1_S256x64_n_0_n_n_0_2_1 x4 (pairIdx x2))
    (broadcastInDim S256x64 ![] bcast_S_S256x64 (constantI S_ 32 2147483648#32))

end Host

/-! ## The pallas_call's three result arrays over the extended reals -/

/-- Row `b` of the top half of the stacked operand against exemplar `c`, times 1.0: the outputs. -/
def prodTop (a : S512x2048.Idx → EReal) (v : S16384x2048.Idx → EReal) : S256x16384.Idx → EReal := fun j =>
  (∑ k : Fin 2048, a (ix2 (⟨(j 0).val, Nat.lt_of_lt_of_le (j 0).isLt (by decide)⟩ : Fin 512) k)
      * v (ix2 (⟨(j 1).val, (j 1).isLt⟩ : Fin 16384) k))
    * Ideal.ofBits .f32 0x3F800000#32

/-- Row `256 + b` of the stacked operand (target row `b`) against exemplar `c`: the target rows' similarities. -/
def prodBot (a : S512x2048.Idx → EReal) (v : S16384x2048.Idx → EReal) : S256x16384.Idx → EReal := fun j =>
  ∑ k : Fin 2048, a (ix2 (⟨256 + (j 0).val, Nat.add_lt_add_left (j 0).isLt 256⟩ : Fin 512) k)
      * v (ix2 (⟨(j 1).val, (j 1).isLt⟩ : Fin 16384) k)

/-- The sum of exemplar row `c`, as a column. -/
def rowSums (v : S16384x2048.Idx → EReal) : S16384x1.Idx → EReal := fun j =>
  ∑ k : Fin 2048, v (ix2 (⟨(j 0).val, (j 0).isLt⟩ : Fin 16384) k)

end Cert.KernelIdeal.Spec

end
-- ==== Proof.KIArrays.lean ====
/-
  What the idealized kernel program's one pallas_call leaves in its three result arrays, as whole-array functions of
  the contents the region finds: the outputs are the top half of the stacked left operand times the transposed
  exemplar memory (scaled by 1.0), the target rows' similarities are the bottom half of the same product, and the
  third array is the exemplar memory's row sums.

  Per result: the body's payload read at an index (the one matrix product as a sum over the contracted axis, its two
  row slices, the lane sum cast to a column); each grid point's written-back block as the block of the whole-array
  function (the operand's block is the whole operand at every point, the exemplar memory's block at point t is rows
  [2048 t, 2048 t + 2048), and a result's block is the columns, or rows, of the same range); and the cover: column c
  of the two products is written at point c / 2048, row r of the row sums at point r / 2048.
-/
import proofs.«416849_j74483322847821_3_alg».proof.Proof.KIData
import proofs.«416849_j74483322847821_3_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-! ## The body's payloads at an index -/

/-- The product's left index on its row axis is the output's row. -/
theorem lhs_mm_0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
/-- The product's left index on its contracted axis is the contraction position. -/
theorem lhs_mm_1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
/-- The product's right index on its row axis is the output's column. -/
theorem rhs_mm_0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
/-- The product's right index on its contracted axis is the contraction position. -/
theorem rhs_mm_1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The one matrix product at (r, q): row r of the operand against row q of the tile, summed over the 2048 lanes. -/
theorem pay2_apply (x0 : Vec Ideal S2048x2048 .f32) (x4 : Vec Ideal S512x2048 .f32) (r : Fin 512) (q : Fin 2048) :
    k0_pay2 x0 x4 (ix2 r q) = ∑ k : Fin 2048, x4 (ix2 r k) * x0 (ix2 q k) := by
  unfold k0_pay2
  rw [shapeCast_self]
  show FloatOps.matmul (F := Ideal) dot_S512x2048_S2048x2048_S512x2048_1_1_0_0_n_n (some .fp32) (x4 : FVec Ideal S512x2048 .f32) (x0 : FVec Ideal S2048x2048 .f32) (constant S512x2048 .f32 0x00000000#32) (ix2 r q) = _
  rw [Ideal.matmul_constant_zero_apply, ← Equiv.sum_comp (ValueIdx.contrEquiv1 dot_S512x2048_S2048x2048_S512x2048_1_1_0_0_n_n 2048 rfl rfl).symm]
  refine Finset.sum_congr rfl fun k _ => ?_
  have hk := ValueIdx.contrEquiv1_symm_val dot_S512x2048_S2048x2048_S512x2048_1_1_0_0_n_n 2048 rfl rfl k
  have el : dot_S512x2048_S2048x2048_S512x2048_1_1_0_0_n_n.lhsIdx (ix2 r q) ((ValueIdx.contrEquiv1 dot_S512x2048_S2048x2048_S512x2048_1_1_0_0_n_n 2048 rfl rfl).symm k) = ix2 r k := funext fun a => Fin.ext (by
    match a with
    | ⟨0, _⟩ => exact lhs_mm_0 _ _
    | ⟨1, _⟩ => exact (lhs_mm_1 _ _).trans hk)
  have er : dot_S512x2048_S2048x2048_S512x2048_1_1_0_0_n_n.rhsIdx (ix2 r q) ((ValueIdx.contrEquiv1 dot_S512x2048_S2048x2048_S512x2048_1_1_0_0_n_n 2048 rfl rfl).symm k) = ix2 q k := funext fun a => Fin.ext (by
    match a with
    | ⟨0, _⟩ => exact rhs_mm_0 _ _
    | ⟨1, _⟩ => exact (rhs_mm_1 _ _).trans hk)
  rw [el, er]

/-- The top half at (p, q): row p of the product, times 1.0. -/
theorem pay3_apply (x0 : Vec Ideal S2048x2048 .f32) (x4 : Vec Ideal S512x2048 .f32) (p : Fin 256) (q : Fin 2048) :
    k0_pay3 x0 x4 (ix2 p q)
      = (∑ k : Fin 2048, x4 (ix2 (⟨p.val, Nat.lt_of_lt_of_le p.isLt (by decide)⟩ : Fin 512) k) * x0 (ix2 q k))
        * Ideal.ofBits .f32 0x3F800000#32 := by
  unfold k0_pay3
  show extractStridedSlice S256x2048 ![0, 0] (k0_pay2 x0 x4) slices_S512x2048_o0_0_S256x2048 (ix2 p q) * Ideal.ofBits .f32 0x3F800000#32 = _
  rw [slice2_axis0_apply 0 (k0_pay2 x0 x4) slices_S512x2048_o0_0_S256x2048 p q (⟨p.val, Nat.lt_of_lt_of_le p.isLt (by decide)⟩ : Fin 512) (Nat.zero_add _).symm, pay2_apply]

/-- The bottom half at (p, q): row 256 + p of the product. -/
theorem pay4_apply (x0 : Vec Ideal S2048x2048 .f32) (x4 : Vec Ideal S512x2048 .f32) (p : Fin 256) (q : Fin 2048) :
    k0_pay4 x0 x4 (ix2 p q)
      = ∑ k : Fin 2048, x4 (ix2 (⟨256 + p.val, Nat.add_lt_add_left p.isLt 256⟩ : Fin 512) k) * x0 (ix2 q k) := by
  unfold k0_pay4
  show extractStridedSlice S256x2048 ![256, 0] (k0_pay2 x0 x4) slices_S512x2048_o256_0_S256x2048 (ix2 p q) = _
  rw [slice2_axis0_apply 256 (k0_pay2 x0 x4) slices_S512x2048_o256_0_S256x2048 p q (⟨256 + p.val, Nat.add_lt_add_left p.isLt 256⟩ : Fin 512) rfl, pay2_apply]

/-- The tile's row sums at (r, 0): row r summed over the 2048 lanes. -/
theorem pay1_apply (x0 : Vec Ideal S2048x2048 .f32) (r : Fin 2048) (u : Fin 1) :
    k0_pay1 x0 (ix2 r u) = ∑ k : Fin 2048, x0 (ix2 r k) := by
  unfold k0_pay1
  have hu : u.val = 0 := by omega
  refine (shapeCast_apply _ shapeCasts_S2048_S2048x1 (ix2 r u) (ix1 r) (by
    rw [Shape.rowMajor_val_two, Shape.rowMajor_val_one]
    show r.val = r.val * 1 + u.val
    rw [hu, Nat.mul_one, Nat.add_zero])).trans ?_
  refine (Ideal.multiReduction_add_single x0 0x00000000#32 reduces_S2048x2048_S2048 (.inl rfl) rfl (ix1 r)).trans ?_
  refine Finset.sum_congr rfl fun k _ => congrArg x0 (funext fun a => Fin.ext ?_)
  match a with
  | ⟨0, _⟩ => rfl
  | ⟨1, _⟩ => rfl

/-! ## The three whole-array functions at an index -/

/-- The top product at (p, C). -/
theorem prodTop_apply (a : S512x2048.Idx → EReal) (v : S16384x2048.Idx → EReal) (p : Fin 256) (C : Fin 16384) :
    Spec.prodTop a v (ix2 p C)
      = (∑ k : Fin 2048, a (ix2 (⟨p.val, Nat.lt_of_lt_of_le p.isLt (by decide)⟩ : Fin 512) k) * v (ix2 C k))
        * Ideal.ofBits .f32 0x3F800000#32 := rfl
/-- The bottom product at (p, C). -/
theorem prodBot_apply (a : S512x2048.Idx → EReal) (v : S16384x2048.Idx → EReal) (p : Fin 256) (C : Fin 16384) :
    Spec.prodBot a v (ix2 p C)
      = ∑ k : Fin 2048, a (ix2 (⟨256 + p.val, Nat.add_lt_add_left p.isLt 256⟩ : Fin 512) k) * v (ix2 C k) := rfl
/-- The row sums at (R, 0). -/
theorem rowSums_apply (v : S16384x2048.Idx → EReal) (R : Fin 16384) (u : Fin 1) :
    Spec.rowSums v (ix2 R u) = ∑ k : Fin 2048, v (ix2 R k) := rfl

/-! ## The index maps over the grid, and the blocks the body reads -/

theorem hz : (![0, 0] : Fin 2 → Nat) = fun _ => 0 := funext fun a => by fin_cases a <;> rfl

/-- The printed index maps, decided over the grid: the operand's block is block (0, 0) at every point, the exemplar
    memory's and the row sums' block at point t is block (t, 0), and the two products' is block (0, t). -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = t.val ∧ win0_4.index t (1 : Fin 2) = 0 :=
  (by decide +kernel : ∀ t : Fin grid0.N, _)

/-- The operand's block at any point is the whole operand. -/
theorem iblk0_apply (c : Dev nD) (t : Fin cfg0.N) (y : S512x2048.Idx) :
    (iblk m c 0 t : Vec Ideal S512x2048 .f32) y = (V m c main_v6 : S512x2048.Idx → EReal) y := by
  obtain ⟨e0, e1, -⟩ := idx_facts t
  unfold iblk
  rw [View.read_apply]
  show (V m c main_v6 : S512x2048.Idx → EReal) (((cfg0.win 0).blk t).view.emb y) = _
  refine congrArg (V m c main_v6 : S512x2048.Idx → EReal) (funext fun a => Fin.ext ?_)
  match a with
  | ⟨0, _⟩ => show win0_0.index t (0 : Fin 2) * 512 + 1 * (y 0).val = (y 0).val; omega
  | ⟨1, _⟩ => show win0_0.index t (1 : Fin 2) * 2048 + 1 * (y 1).val = (y 1).val; omega

/-- The exemplar memory's block at point t is its rows [2048 t, 2048 t + 2048). -/
theorem iblk1_apply (c : Dev nD) (t : Fin cfg0.N) (r k : Fin 2048) (R : Fin 16384) (hR : R.val = 2048 * t.val + r.val) :
    (iblk m c 1 t : Vec Ideal S2048x2048 .f32) (ix2 r k) = (V m c main_arg5 : S16384x2048.Idx → EReal) (ix2 R k) := by
  obtain ⟨-, -, e0, e1, -⟩ := idx_facts t
  unfold iblk
  rw [View.read_apply]
  show (V m c main_arg5 : S16384x2048.Idx → EReal) (((cfg0.win 1).blk t).view.emb (ix2 r k)) = _
  refine congrArg (V m c main_arg5 : S16384x2048.Idx → EReal) (funext fun a => Fin.ext ?_)
  match a with
  | ⟨0, _⟩ => show win0_1.index t (0 : Fin 2) * 2048 + 1 * r.val = R.val; omega
  | ⟨1, _⟩ => show win0_1.index t (1 : Fin 2) * 2048 + 1 * k.val = k.val; omega

/-! ## The outputs: window 2 -/

/-- What point t writes back of the outputs is block t (columns [2048 t, 2048 t + 2048)) of the top product. -/
theorem flushed_outputs (c : Dev nD) (t : Fin cfg0.N) :
    (dats (F := Ideal) m 0 c).flushed 2 t
      = ((cfg0.win 2).blk t).view.read (Elt Ideal) (Spec.prodTop (V m c main_v6) (V m c main_arg5)) := by
  show (cfg0.win 2).cut (grid0.coords t) ((dats m 0 c).after 2 t) = _
  rw [after0_2]
  unfold out0_2
  rw [View.canon_unit_zero hz]
  simp only [View.ld_unit_zero (S := S2048x2048) hz, View.ld_unit_zero (S := S512x2048) hz]
  obtain ⟨-, -, -, -, e0, e1, -⟩ := idx_facts t
  have hN : t.val < 8 := t.isLt
  funext j
  have h0 : (j 0).val < 256 := (j 0).isLt
  have h1 : (j 1).val < 2048 := (j 1).isLt
  rw [View.read_apply]
  have hj : (cfg0.win 2).xinj (grid0.coords t) j = ix2 (⟨(j 0).val, h0⟩ : Fin 256) (⟨(j 1).val, h1⟩ : Fin 2048) :=
    funext fun a => by match a with | ⟨0, _⟩ => rfl | ⟨1, _⟩ => rfl
  have hemb : ((cfg0.win 2).blk t).view.emb j
      = ix2 (⟨(j 0).val, h0⟩ : Fin 256) (⟨2048 * t.val + (j 1).val, by omega⟩ : Fin 16384) := by
    funext a; apply Fin.ext
    match a with
    | ⟨0, _⟩ => show win0_2.index t (0 : Fin 2) * 256 + 1 * (j 0).val = (j 0).val; omega
    | ⟨1, _⟩ => show win0_2.index t (1 : Fin 2) * 2048 + 1 * (j 1).val = 2048 * t.val + (j 1).val; omega
  show k0_pay3 (iblk m c 1 t) (iblk m c 0 t) ((cfg0.win 2).xinj (grid0.coords t) j)
    = Spec.prodTop (V m c main_v6) (V m c main_arg5) (((cfg0.win 2).blk t).view.emb j)
  rw [hj, hemb, pay3_apply, prodTop_apply]
  refine congrArg (· * Ideal.ofBits .f32 0x3F800000#32) (Finset.sum_congr rfl fun k _ => ?_)
  rw [iblk0_apply, iblk1_apply m c t (⟨(j 1).val, h1⟩ : Fin 2048) k (⟨2048 * t.val + (j 1).val, by omega⟩ : Fin 16384) rfl]

/-- An index of the outputs is in point t's block iff each coordinate is in the block's range on its axis. -/
theorem mem_blk_outputs (t : Fin cfg0.N) (i : S256x16384.Idx) :
    i ∈ ((cfg0.win 2).blk t).view.set ↔ ∀ a : Fin 2, win0_2.index t a * S256x2048.size a ≤ (i a).val
      ∧ (i a).val < win0_2.index t a * S256x2048.size a + S256x2048.size a := by
  show i ∈ ((View.whole main_v7_0).slice (win0_2.rect t)).set ↔ _
  rw [View.set_slice_whole, Rect.mem_set_unit]
  exact Iff.rfl

/-- Column C of the outputs is written back at point C / 2048. -/
theorem cover_outputs (i : S256x16384.Idx) :
    ∃ t : Fin cfg0.N, (cfg0.win 2).flush t = true ∧ i ∈ ((cfg0.win 2).blk t).view.set := by
  have hi0 : (i 0).val < 256 := (i 0).isLt
  have hi1 : (i 1).val < 16384 := (i 1).isLt
  obtain ⟨t, ht⟩ : ∃ t : Fin cfg0.N, t.val = (i 1).val / 2048 :=
    ⟨⟨(i 1).val / 2048, by rw [show cfg0.N = 8 from N_0]; omega⟩, rfl⟩
  obtain ⟨-, -, -, -, e0, e1, -⟩ := idx_facts t
  refine ⟨t, flush0_2 t, ?_⟩
  rw [mem_blk_outputs]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2048 ≤ (i 1).val ∧ (i 1).val < win0_2.index t (1 : Fin 2) * 2048 + 2048; omega

/-- THE OUTPUTS after the last point: the top half of the stacked operand times the transposed exemplar memory,
    scaled by 1.0. -/
theorem final_outputs (c : Dev nD) :
    (dats (F := Ideal) m 0 c).arrAt 2 cfg0.N = Spec.prodTop (V m c main_v6) (V m c main_arg5) :=
  (dats m 0 c).arrAt_eq_of_cover 2 (Spec.prodTop (V m c main_v6) (V m c main_arg5))
    (fun t _ => flushed_outputs m c t) cover_outputs

/-! ## The target rows' similarities: window 3 -/

/-- What point t writes back of the similarities is block t (columns [2048 t, 2048 t + 2048)) of the bottom product. -/
theorem flushed_tsims (c : Dev nD) (t : Fin cfg0.N) :
    (dats (F := Ideal) m 0 c).flushed 3 t
      = ((cfg0.win 3).blk t).view.read (Elt Ideal) (Spec.prodBot (V m c main_v6) (V m c main_arg5)) := by
  show (cfg0.win 3).cut (grid0.coords t) ((dats m 0 c).after 3 t) = _
  rw [after0_3]
  unfold out0_3
  rw [View.canon_unit_zero hz]
  simp only [View.ld_unit_zero (S := S2048x2048) hz, View.ld_unit_zero (S := S512x2048) hz]
  obtain ⟨-, -, -, -, -, -, e0, e1, -⟩ := idx_facts t
  have hN : t.val < 8 := t.isLt
  funext j
  have h0 : (j 0).val < 256 := (j 0).isLt
  have h1 : (j 1).val < 2048 := (j 1).isLt
  rw [View.read_apply]
  have hj : (cfg0.win 3).xinj (grid0.coords t) j = ix2 (⟨(j 0).val, h0⟩ : Fin 256) (⟨(j 1).val, h1⟩ : Fin 2048) :=
    funext fun a => by match a with | ⟨0, _⟩ => rfl | ⟨1, _⟩ => rfl
  have hemb : ((cfg0.win 3).blk t).view.emb j
      = ix2 (⟨(j 0).val, h0⟩ : Fin 256) (⟨2048 * t.val + (j 1).val, by omega⟩ : Fin 16384) := by
    funext a; apply Fin.ext
    match a with
    | ⟨0, _⟩ => show win0_3.index t (0 : Fin 2) * 256 + 1 * (j 0).val = (j 0).val; omega
    | ⟨1, _⟩ => show win0_3.index t (1 : Fin 2) * 2048 + 1 * (j 1).val = 2048 * t.val + (j 1).val; omega
  show k0_pay4 (iblk m c 1 t) (iblk m c 0 t) ((cfg0.win 3).xinj (grid0.coords t) j)
    = Spec.prodBot (V m c main_v6) (V m c main_arg5) (((cfg0.win 3).blk t).view.emb j)
  rw [hj, hemb, pay4_apply, prodBot_apply]
  refine Finset.sum_congr rfl fun k _ => ?_
  rw [iblk0_apply, iblk1_apply m c t (⟨(j 1).val, h1⟩ : Fin 2048) k (⟨2048 * t.val + (j 1).val, by omega⟩ : Fin 16384) rfl]

/-- An index of the similarities is in point t's block iff each coordinate is in the block's range on its axis. -/
theorem mem_blk_tsims (t : Fin cfg0.N) (i : S256x16384.Idx) :
    i ∈ ((cfg0.win 3).blk t).view.set ↔ ∀ a : Fin 2, win0_3.index t a * S256x2048.size a ≤ (i a).val
      ∧ (i a).val < win0_3.index t a * S256x2048.size a + S256x2048.size a := by
  show i ∈ ((View.whole main_v7_1).slice (win0_3.rect t)).set ↔ _
  rw [View.set_slice_whole, Rect.mem_set_unit]
  exact Iff.rfl

/-- Column C of the similarities is written back at point C / 2048. -/
theorem cover_tsims (i : S256x16384.Idx) :
    ∃ t : Fin cfg0.N, (cfg0.win 3).flush t = true ∧ i ∈ ((cfg0.win 3).blk t).view.set := by
  have hi0 : (i 0).val < 256 := (i 0).isLt
  have hi1 : (i 1).val < 16384 := (i 1).isLt
  obtain ⟨t, ht⟩ : ∃ t : Fin cfg0.N, t.val = (i 1).val / 2048 :=
    ⟨⟨(i 1).val / 2048, by rw [show cfg0.N = 8 from N_0]; omega⟩, rfl⟩
  obtain ⟨-, -, -, -, -, -, e0, e1, -⟩ := idx_facts t
  refine ⟨t, flush0_3 t, ?_⟩
  rw [mem_blk_tsims]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 2048 ≤ (i 1).val ∧ (i 1).val < win0_3.index t (1 : Fin 2) * 2048 + 2048; omega

/-- THE TARGET ROWS' SIMILARITIES after the last point: the bottom half of the stacked operand (the target rows) times
    the transposed exemplar memory. -/
theorem final_tsims (c : Dev nD) :
    (dats (F := Ideal) m 0 c).arrAt 3 cfg0.N = Spec.prodBot (V m c main_v6) (V m c main_arg5) :=
  (dats m 0 c).arrAt_eq_of_cover 3 (Spec.prodBot (V m c main_v6) (V m c main_arg5))
    (fun t _ => flushed_tsims m c t) cover_tsims

/-! ## The exemplar memory's row sums: window 4 -/

/-- What point t writes back of the row sums is block t (rows [2048 t, 2048 t + 2048)) of the whole column. -/
theorem flushed_rowsums (c : Dev nD) (t : Fin cfg0.N) :
    (dats (F := Ideal) m 0 c).flushed 4 t
      = ((cfg0.win 4).blk t).view.read (Elt Ideal) (Spec.rowSums (V m c main_arg5)) := by
  show (cfg0.win 4).cut (grid0.coords t) ((dats m 0 c).after 4 t) = _
  rw [after0_4]
  unfold out0_4
  rw [View.canon_unit_zero hz]
  simp only [View.ld_unit_zero (S := S2048x2048) hz]
  obtain ⟨-, -, -, -, -, -, -, -, e0, e1⟩ := idx_facts t
  have hN : t.val < 8 := t.isLt
  funext j
  have h0 : (j 0).val < 2048 := (j 0).isLt
  have h1 : (j 1).val < 1 := (j 1).isLt
  rw [View.read_apply]
  have hj : (cfg0.win 4).xinj (grid0.coords t) j = ix2 (⟨(j 0).val, h0⟩ : Fin 2048) (⟨(j 1).val, h1⟩ : Fin 1) :=
    funext fun a => by match a with | ⟨0, _⟩ => rfl | ⟨1, _⟩ => rfl
  have hemb : ((cfg0.win 4).blk t).view.emb j
      = ix2 (⟨2048 * t.val + (j 0).val, by omega⟩ : Fin 16384) (⟨(j 1).val, h1⟩ : Fin 1) := by
    funext a; apply Fin.ext
    match a with
    | ⟨0, _⟩ => show win0_4.index t (0 : Fin 2) * 2048 + 1 * (j 0).val = 2048 * t.val + (j 0).val; omega
    | ⟨1, _⟩ => show win0_4.index t (1 : Fin 2) * 1 + 1 * (j 1).val = (j 1).val; omega
  show k0_pay1 (iblk m c 1 t) ((cfg0.win 4).xinj (grid0.coords t) j)
    = Spec.rowSums (V m c main_arg5) (((cfg0.win 4).blk t).view.emb j)
  rw [hj, hemb, pay1_apply, rowSums_apply]
  refine Finset.sum_congr rfl fun k _ => ?_
  rw [iblk1_apply m c t (⟨(j 0).val, h0⟩ : Fin 2048) k (⟨2048 * t.val + (j 0).val, by omega⟩ : Fin 16384) rfl]

/-- An index of the row sums is in point t's block iff each coordinate is in the block's range on its axis. -/
theorem mem_blk_rowsums (t : Fin cfg0.N) (i : S16384x1.Idx) :
    i ∈ ((cfg0.win 4).blk t).view.set ↔ ∀ a : Fin 2, win0_4.index t a * S2048x1.size a ≤ (i a).val
      ∧ (i a).val < win0_4.index t a * S2048x1.size a + S2048x1.size a := by
  show i ∈ ((View.whole main_v7_2).slice (win0_4.rect t)).set ↔ _
  rw [View.set_slice_whole, Rect.mem_set_unit]
  exact Iff.rfl

/-- Row R of the row sums is written back at point R / 2048. -/
theorem cover_rowsums (i : S16384x1.Idx) :
    ∃ t : Fin cfg0.N, (cfg0.win 4).flush t = true ∧ i ∈ ((cfg0.win 4).blk t).view.set := by
  have hi0 : (i 0).val < 16384 := (i 0).isLt
  have hi1 : (i 1).val < 1 := (i 1).isLt
  obtain ⟨t, ht⟩ : ∃ t : Fin cfg0.N, t.val = (i 0).val / 2048 :=
    ⟨⟨(i 0).val / 2048, by rw [show cfg0.N = 8 from N_0]; omega⟩, rfl⟩
  obtain ⟨-, -, -, -, -, -, -, -, e0, e1⟩ := idx_facts t
  refine ⟨t, flush0_4 t, ?_⟩
  rw [mem_blk_rowsums]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 1 ≤ (i 1).val ∧ (i 1).val < win0_4.index t (1 : Fin 2) * 1 + 1; omega

/-- THE ROW SUMS after the last point: each row of the exemplar memory summed over its 2048 lanes, as a column. -/
theorem final_rowsums (c : Dev nD) :
    (dats (F := Ideal) m 0 c).arrAt 4 cfg0.N = Spec.rowSums (V m c main_arg5) :=
  (dats m 0 c).arrAt_eq_of_cover 4 (Spec.rowSums (V m c main_arg5))
    (fun t _ => flushed_rowsums m c t) cover_rowsums

end Cert.KernelIdeal.Hand

end
-- ==== Proof.Shared.lean ====
/-
  The part of the loss both programs compute in the same way, as ONE function of four quantities: the per-row
  thresholds (the target similarity minus the margin), the cluster ids of the negative pairs, the matrix of the
  target rows' similarities with every exemplar, and the row sums of the exemplar memory.  It gathers each row's
  similarities at its cluster ids (an id out of range, after wrapping a negative one, reads the fill value), keeps
  those above the row's threshold and below the self-similarity cut, counts them, averages softplus over them (0
  when there is none), and gates the result on every exemplar row having a nonzero sum.  Both programs' losses are
  this function of their own four quantities, so the certificate never opens it: it proves the four equal.
-/
import proofs.«416849_j74483322847821_3_alg».proof.Proof.Gen.ReferenceIdeal

noncomputable section

namespace Cert.Shared

open Cert.ReferenceIdeal Cert.ReferenceIdeal.Gen Idealize.ShloMosaic

variable {F : FTy → Type} [FloatOps F]

/-- Each row's similarities at its cluster ids: `take_along_axis` along the exemplar axis with the fill value
    where the wrapped id is out of range. -/
def gatherIds (tsims : (⟨S256x16384, .f32⟩ : BufTy).Contents (Elt F)) (cids : (⟨S256x64, .i32⟩ : BufTy).Contents (Elt F)) :
    (⟨S256x64, .f32⟩ : BufTy).Contents (Elt F) :=
  let wrapped : (⟨S256x64, .i32⟩ : BufTy).Contents (Elt F) :=
    select (cmpi .slt cids (broadcastInDim S256x64 ![] bcast_S_S256x64 (constantI S_ 32 0#32)))
      (addi cids (broadcastInDim S256x64 ![] bcast_S_S256x64 (constantI S_ 32 16384#32))) cids
  let idx : (⟨S256x64x1, .i32⟩ : BufTy).Contents (Elt F) := shapeCast _ wrapped shapeCasts_S256x64_S256x64x1
  let inb : (⟨S256x64, .i1⟩ : BufTy).Contents (Elt F) :=
    Host.reduce IntOp.andi
      (andi (cmpi .sge idx (broadcastInDim S256x64x1 ![] bcast_S_S256x64x1 (constantI S_ 32 0#32)))
        (cmpi .sle idx (broadcastInDim S256x64x1 ![0, 1, 2] bcast_S1x1x1_S256x64x1_0_1_2
          (broadcastInDim S1x1x1 ![2] bcast_S1_S1x1x1_2 (constantI S1 32 16383#32)))))
      (constantI S_ 1 1#1) reducesTo_S256x64x1_S256x64_d2 h_S_
  select inb (Host.gather gather_S256x16384_S256x64x1_S256x64_n_1_0_0_1_2_11 tsims idx)
    (broadcastInDim S256x64 ![] bcast_S_S256x64 (constant S_ .f32 0x7FC00000#32))

/-- The loss from the four quantities. -/
def lossOf (nthr : (⟨S256x1, .f32⟩ : BufTy).Contents (Elt F)) (cids : (⟨S256x64, .i32⟩ : BufTy).Contents (Elt F))
    (tsims : (⟨S256x16384, .f32⟩ : BufTy).Contents (Elt F)) (rows : (⟨S16384, .f32⟩ : BufTy).Contents (Elt F)) :
    (⟨S_, .f32⟩ : BufTy).Contents (Elt F) :=
  let nsims : (⟨S256x64, .f32⟩ : BufTy).Contents (Elt F) := gatherIds tsims cids
  let mask : (⟨S256x64, .i1⟩ : BufTy).Contents (Elt F) :=
    andi (cmpf (F := F) .ogt nsims (broadcastInDim S256x64 ![0, 1] bcast_S256x1_S256x64_0_1 nthr))
      (cmpf (F := F) .olt nsims (broadcastInDim S256x64 ![] bcast_S_S256x64 (constant S_ .f32 0x3F7FFFEF#32)))
  let count : (⟨S_, .f32⟩ : BufTy).Contents (Elt F) :=
    sitofp (F := F) .f32 (Host.reduce IntOp.addi (extui 32 mask natLt_1_32) (constantI S_ 32 0#32) reducesTo_S256x64_S_d0_1 h_S_)
  let zero : (⟨S256x64, .f32⟩ : BufTy).Contents (Elt F) := broadcastInDim S256x64 ![] bcast_S_S256x64 (constant S_ .f32 0x00000000#32)
  let d : (⟨S256x64, .f32⟩ : BufTy).Contents (Elt F) := subf nsims zero
  let softplus : (⟨S256x64, .f32⟩ : BufTy).Contents (Elt F) :=
    select (cmpf (F := F) .une d d) (addf nsims zero)
      (addf (maximumf nsims zero) (Host.log1p (Host.exp (Host.negf (Host.absf d)))))
  let kept : (⟨S256x64, .f32⟩ : BufTy).Contents (Elt F) :=
    select mask softplus (broadcastInDim S256x64 ![] bcast_S_S256x64 (id (constant S_ .f32 0x00000000#32)))
  let mean : (⟨S_, .f32⟩ : BufTy).Contents (Elt F) :=
    select (cmpf (F := F) .ogt count (constant S_ .f32 0x00000000#32))
      (Host.divf (Host.reduceAdd kept (constant S_ .f32 0x00000000#32) reducesTo_S256x64_S_d0_1 h_S_)
        (maximumf count (constant S_ .f32 0x3F800000#32)))
      (id (constant S_ .f32 0x00000000#32))
  let gate : (⟨S_, .i1⟩ : BufTy).Contents (Elt F) :=
    Host.reduce IntOp.andi
      (cmpf (F := F) .une rows (broadcastInDim S16384 ![] bcast_S_S16384 (constant S_ .f32 0x00000000#32)))
      (constantI S_ 1 1#1) reducesTo_S16384_S_d0 h_S_
  mulf (constant S_ .f32 0x3F800000#32) (select gate mean (id (constant S_ .f32 0x00000000#32)))

end Cert.Shared

end
-- ==== Proof.KITail.lean ====
/-
  The host lines around the idealized kernel program's one pallas_call, read as the named functions of the
  program's arguments: before the region, the normalised inputs, the gathered target rows and their stack on the
  inputs (the region's left operand), and the exemplar memory untouched; after the region, the scalar loss as the
  shared loss function of the thresholds, the cluster ids, the array of the target rows' similarities and the
  column of row sums the region leaves.  Everything is stated at any float instance.
-/
import proofs.«416849_j74483322847821_3_alg».proof.Proof.KIData
import proofs.«416849_j74483322847821_3_alg».proof.Proof.KSpec
import proofs.«416849_j74483322847821_3_alg».proof.Proof.Shared
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## Before the region -/

/-- Running two lines one after the other is running the second from where the first ends. -/
theorem after_append' (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

/-- Core `c`'s buffer contents after the first three stretches (the row norms, the normalised inputs, the gathered
    target rows): before the one line that stacks the left operand. -/
abbrev pre3 (c : Dev nD) : Valuation τ sig (Elt F) :=
  StableHlo.after (List.flatten [hostOps0, hostOps0_1, hostOps0_2]) (fun b => m (c, b))

/-- What the region finds is what the first three stretches leave, followed by the one stacking line. -/
theorem V0_eq (c : Dev nD) : V0 m c = StableHlo.after hostOps0_3 (pre3 m c) := by
  show StableHlo.after (List.flatten [hostOps0, hostOps0_1, hostOps0_2, hostOps0_3]) _ = _
  rw [show List.flatten [hostOps0 (F := F), hostOps0_1, hostOps0_2, hostOps0_3]
      = List.flatten [hostOps0, hostOps0_1, hostOps0_2] ++ hostOps0_3 from by
    simp only [List.flatten_cons, List.flatten_nil, List.append_nil, List.append_assoc]]
  exact after_append' _ _ _

/-- After the first three stretches: the target rows, the normalised inputs, and the arguments untouched. -/
theorem pre3_v5 (c : Dev nD) :
    pre3 m c (Proc.devRef .tc main_v5)
      = Spec.takeRows (m ((c : Thread nD τ).loc main_arg1)) (m ((c : Thread nD τ).loc main_arg5)) := by
  show StableHlo.after (List.flatten [hostOps0, hostOps0_1, hostOps0_2]) (fun b => m (c, b)) (Proc.devRef .tc main_v5) = _
  simp only [hostOps0, hostOps0_1, hostOps0_2, List.flatten_cons, List.flatten_nil, List.append_nil,
    List.cons_append, List.nil_append]
  after_results_simp
  simp only [StableHlo.TRef.ofBuf, StableHlo.TRef.toBuf, cast_eq]
  rfl

theorem pre3_v4 (c : Dev nD) :
    pre3 m c (Proc.devRef .tc main_v4) = Spec.normIn (m ((c : Thread nD τ).loc main_arg0)) := by
  show StableHlo.after (List.flatten [hostOps0, hostOps0_1, hostOps0_2]) (fun b => m (c, b)) (Proc.devRef .tc main_v4) = _
  simp only [hostOps0, hostOps0_1, hostOps0_2, List.flatten_cons, List.flatten_nil, List.append_nil,
    List.cons_append, List.nil_append]
  after_results_simp
  simp only [StableHlo.TRef.ofBuf, StableHlo.TRef.toBuf, cast_eq]
  rfl

theorem pre3_arg0 (c : Dev nD) : pre3 m c (Proc.devRef .tc main_arg0) = m ((c : Thread nD τ).loc main_arg0) := by
  show StableHlo.after (List.flatten [hostOps0, hostOps0_1, hostOps0_2]) (fun b => m (c, b)) (Proc.devRef .tc main_arg0) = _
  simp only [hostOps0, hostOps0_1, hostOps0_2, List.flatten_cons, List.flatten_nil, List.append_nil,
    List.cons_append, List.nil_append]
  after_results_simp

theorem pre3_arg5 (c : Dev nD) : pre3 m c (Proc.devRef .tc main_arg5) = m ((c : Thread nD τ).loc main_arg5) := by
  show StableHlo.after (List.flatten [hostOps0, hostOps0_1, hostOps0_2]) (fun b => m (c, b)) (Proc.devRef .tc main_arg5) = _
  simp only [hostOps0, hostOps0_1, hostOps0_2, List.flatten_cons, List.flatten_nil, List.append_nil,
    List.cons_append, List.nil_append]
  after_results_simp

/-- The normalised inputs: each input row over the larger of its norm and the small constant. -/
theorem V_main_v4 (c : Dev nD) : V m c main_v4 = Spec.normIn (m ((c : Thread nD τ).loc main_arg0)) := by
  show V0 m c (Proc.devRef .tc main_v4) = _
  rw [V0_eq]
  simp only [hostOps0_3]
  after_results
  exact pre3_v4 m c

/-- The target rows of the exemplar memory, the fill value where the wrapped target is out of range. -/
theorem V_main_v5 (c : Dev nD) :
    V m c main_v5 = Spec.takeRows (m ((c : Thread nD τ).loc main_arg1)) (m ((c : Thread nD τ).loc main_arg5)) := by
  show V0 m c (Proc.devRef .tc main_v5) = _
  rw [V0_eq]
  simp only [hostOps0_3]
  after_results
  exact pre3_v5 m c

/-- The region's left operand: the inputs stacked on the target rows. -/
theorem V_main_v6 (c : Dev nD) :
    V m c main_v6 = Spec.stacked (m ((c : Thread nD τ).loc main_arg0))
      (Spec.takeRows (m ((c : Thread nD τ).loc main_arg1)) (m ((c : Thread nD τ).loc main_arg5))) := by
  show V0 m c (Proc.devRef .tc main_v6) = _
  rw [V0_eq]
  simp only [hostOps0_3]
  after_results
  rw [pre3_arg0, pre3_v5]
  rfl

/-- No host line before the region writes the exemplar memory: the region finds it as launched. -/
theorem V_main_arg5' (c : Dev nD) : V m c main_arg5 = m ((c : Thread nD τ).loc main_arg5) := by
  show V0 m c (Proc.devRef .tc main_arg5) = _
  rw [V0_eq]
  simp only [hostOps0_3]
  after_results
  exact pre3_arg5 m c

theorem pre3_arg2 (c : Dev nD) : pre3 m c (Proc.devRef .tc main_arg2) = m ((c : Thread nD τ).loc main_arg2) := by
  show StableHlo.after (List.flatten [hostOps0, hostOps0_1, hostOps0_2]) (fun b => m (c, b)) (Proc.devRef .tc main_arg2) = _
  simp only [hostOps0, hostOps0_1, hostOps0_2, List.flatten_cons, List.flatten_nil, List.append_nil,
    List.cons_append, List.nil_append]
  after_results_simp

theorem pre3_arg4 (c : Dev nD) : pre3 m c (Proc.devRef .tc main_arg4) = m ((c : Thread nD τ).loc main_arg4) := by
  show StableHlo.after (List.flatten [hostOps0, hostOps0_1, hostOps0_2]) (fun b => m (c, b)) (Proc.devRef .tc main_arg4) = _
  simp only [hostOps0, hostOps0_1, hostOps0_2, List.flatten_cons, List.flatten_nil, List.append_nil,
    List.cons_append, List.nil_append]
  after_results_simp

/-- No host line before the region writes the negative pairs' indices. -/
theorem V_main_arg2' (c : Dev nD) : V m c main_arg2 = m ((c : Thread nD τ).loc main_arg2) := by
  show V0 m c (Proc.devRef .tc main_arg2) = _
  rw [V0_eq]
  simp only [hostOps0_3]
  after_results
  exact pre3_arg2 m c

/-- No host line before the region writes the exemplars' cluster ids. -/
theorem V_main_arg4' (c : Dev nD) : V m c main_arg4 = m ((c : Thread nD τ).loc main_arg4) := by
  show V0 m c (Proc.devRef .tc main_arg4) = _
  rw [V0_eq]
  simp only [hostOps0_3]
  after_results
  exact pre3_arg4 m c

/-! ## After the region -/

/-- The twelve stretches after the region, run from any buffer contents `W`: the loss is the shared loss function of
    the thresholds and the cluster ids computed from what `W` holds at the normalised inputs, the target rows and
    the two index arguments, and of what it holds at the similarities' array and at the column of row sums. -/
theorem tail_of (W : Valuation τ sig (Elt F)) :
    StableHlo.after (List.flatten (tailOps (F := F))) W (Proc.devRef .tc main_v35)
      = Cert.Shared.lossOf
          (Spec.thresholds (W (Proc.devRef .tc main_v4)) (W (Proc.devRef .tc main_v5)))
          (Spec.clusterIds (W (Proc.devRef .tc main_arg2)) (W (Proc.devRef .tc main_arg4)))
          (W (Proc.devRef .tc main_v7_1))
          (shapeCast _ (W (Proc.devRef .tc main_v7_2)) shapeCasts_S16384x1_S16384) := by
  simp only [tailOps, hostOps1, hostOps1_1, hostOps1_2, hostOps1_3, hostOps1_4, hostOps1_5, hostOps1_6, hostOps1_7, hostOps1_8, hostOps1_9, hostOps1_10, hostOps1_11, List.flatten_cons, List.flatten_nil, List.append_nil,
    List.cons_append, List.nil_append]
  after_results_simp
  simp only [StableHlo.TRef.ofBuf, StableHlo.TRef.toBuf, cast_eq]
  rfl

/-- The loss the program returns: the shared loss function of the thresholds and cluster ids the host lines compute
    from the arguments, of the array of the target rows' similarities the region leaves, and of its column of row
    sums read as a vector. -/
theorem tail_loss (c : Dev nD) :
    Pipeline.afterTail₀ cfgs (dats m) 0 (V0 m) tailOps c main_v35
      = Cert.Shared.lossOf
          (Spec.thresholds (Spec.normIn (m ((c : Thread nD τ).loc main_arg0)))
            (Spec.takeRows (m ((c : Thread nD τ).loc main_arg1)) (m ((c : Thread nD τ).loc main_arg5))))
          (Spec.clusterIds (m ((c : Thread nD τ).loc main_arg2)) (m ((c : Thread nD τ).loc main_arg4)))
          ((dats m 0 c).arrAt 3 cfg0.N)
          (shapeCast _ ((dats m 0 c).arrAt 4 cfg0.N) shapeCasts_S16384x1_S16384) := by
  have e4 : Pipeline.withArrays spec0 c (V0 m c) (fun w => (dats m 0 c).arrAt w cfg0.N) (Proc.devRef .tc main_v4)
      = Spec.normIn (m ((c : Thread nD τ).loc main_arg0)) :=
    (Pipeline.withArrays_of_ne _ c (V0 m c) _ main_v4
      (by exact (by decide : ∀ w, Pipeline.arrRef spec0 w ≠ main_v4))).trans (V_main_v4 m c)
  have e5 : Pipeline.withArrays spec0 c (V0 m c) (fun w => (dats m 0 c).arrAt w cfg0.N) (Proc.devRef .tc main_v5)
      = Spec.takeRows (m ((c : Thread nD τ).loc main_arg1)) (m ((c : Thread nD τ).loc main_arg5)) :=
    (Pipeline.withArrays_of_ne _ c (V0 m c) _ main_v5
      (by exact (by decide : ∀ w, Pipeline.arrRef spec0 w ≠ main_v5))).trans (V_main_v5 m c)
  have e2 : Pipeline.withArrays spec0 c (V0 m c) (fun w => (dats m 0 c).arrAt w cfg0.N) (Proc.devRef .tc main_arg2)
      = m ((c : Thread nD τ).loc main_arg2) :=
    (Pipeline.withArrays_of_ne _ c (V0 m c) _ main_arg2
      (by exact (by decide : ∀ w, Pipeline.arrRef spec0 w ≠ main_arg2))).trans (V_main_arg2' m c)
  have e4' : Pipeline.withArrays spec0 c (V0 m c) (fun w => (dats m 0 c).arrAt w cfg0.N) (Proc.devRef .tc main_arg4)
      = m ((c : Thread nD τ).loc main_arg4) :=
    (Pipeline.withArrays_of_ne _ c (V0 m c) _ main_arg4
      (by exact (by decide : ∀ w, Pipeline.arrRef spec0 w ≠ main_arg4))).trans (V_main_arg4' m c)
  have e71 : Pipeline.withArrays spec0 c (V0 m c) (fun w => (dats m 0 c).arrAt w cfg0.N) (Proc.devRef .tc main_v7_1)
      = (dats m 0 c).arrAt 3 cfg0.N :=
    Pipeline.withArrays_arr spec0 launch0.win.arr_inj c _ _ 3
  have e72 : Pipeline.withArrays spec0 c (V0 m c) (fun w => (dats m 0 c).arrAt w cfg0.N) (Proc.devRef .tc main_v7_2)
      = (dats m 0 c).arrAt 4 cfg0.N :=
    Pipeline.withArrays_arr spec0 launch0.win.arr_inj c _ _ 4
  unfold Pipeline.afterTail₀
  show StableHlo.after (List.flatten tailOps)
    (Pipeline.withArrays spec0 c (V0 m c) (fun w => (dats m 0 c).arrAt w cfg0.N)) (Proc.devRef .tc main_v35) = _
  rw [tail_of, e4, e5, e2, e4', e71, e72]

end Cert.KernelIdeal.Hand

end
-- ==== Proof.RefValue.lean ====
/-
  The reference program's values in the three forms the certificate needs.  Its loss is the shared loss function of
  four of its own stages: the per-row thresholds, the cluster ids of the negative pairs, the target rows'
  similarities with every exemplar, and the row sums of the exemplar memory.  Its run is restated over the stage
  functions.  And, over the extended reals, three arrays are identified index by index with three of its stages:
  the top half of the stacked operand times the transposed exemplar memory (scaled by 1.0) is the outputs; the
  bottom half, when it holds the gathered target rows, is the target rows' similarities; the column of exemplar row
  sums, flattened, is the row-sum stage.  Each of the three is a sum over the 2048 features, equal term by term.
-/
import proofs.«416849_j74483322847821_3_alg».proof.Proof.RefRead
import proofs.«416849_j74483322847821_3_alg».proof.Proof.Shared
import proofs.«416849_j74483322847821_3_alg».proof.Proof.KSpec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.ValueIdx

section Generic

variable {F : FTy → Type} [FloatOps F]

/-- The reference's loss is the shared loss function of its thresholds, its cluster ids, its target rows'
    similarities and its exemplar row sums: from the second gather on, its operations are that function's, one by one. -/
theorem loss_eq (x0 : (⟨S256x2048, .f32⟩ : BufTy).Contents (Elt F)) (x1 : (⟨S256, .i32⟩ : BufTy).Contents (Elt F))
    (x2 : (⟨S256x64, .i32⟩ : BufTy).Contents (Elt F)) (x4 : (⟨S16384, .i32⟩ : BufTy).Contents (Elt F))
    (x5 : (⟨S16384x2048, .f32⟩ : BufTy).Contents (Elt F)) :
    val_main_v52 (F := F) x0 x1 x2 x4 x5
      = Cert.Shared.lossOf (val_main_v14 (F := F) x0 x1 x5) (val_main_v30 (F := F) x2 x4)
          (val_main_v23 (F := F) x1 x5) (val_main_v47 (F := F) x5) := by
  unfold val_main_v52 val_main_cst_16 val_main_v51 val_main_call6_v0 val_main_cst_15 val_main_v50 val_main_c_14
    val_main_v49 val_main_v48 val_main_cst_13 val_main_v46 val_main_call5_v0 val_main_cst_11 val_main_v45
    val_main_v44 val_main_cst_10 val_main_v43 val_main_cst_9 val_main_v42 val_main_call4_v1 val_main_call4_v0
    val_main_cst_8 val_main_v41 val_main_cst_7 val_main_v40 val_main_call3_v11 val_main_call3_v10
    val_main_call3_v9 val_main_call3_v8 val_main_call3_v7 val_main_call3_v6 val_main_call3_v5 val_main_call3_v4
    val_main_call3_v3 val_main_call3_v2 val_main_call3_v1 val_main_call3_v0 val_main_call3_cst val_main_v39
    val_main_v38 val_main_c_6 val_main_v37 val_main_v36 val_main_v35 val_main_v34 val_main_cst_5 val_main_v33
    val_main_v32 val_main_v31 val_main_call2_v14 val_main_call2_cst val_main_call2_v13 val_main_call2_v12
    val_main_call2_c_3 val_main_call2_v11 val_main_call2_v10 val_main_call2_v9 val_main_call2_v8
    val_main_call2_v7 val_main_call2_v6 val_main_call2_c_2 val_main_call2_c_1 val_main_call2_v5
    val_main_call2_v4 val_main_call2_v3 val_main_call2_v2 val_main_call2_c_0 val_main_call2_v1
    val_main_call2_v0 val_main_call2_c
  generalize val_main_v14 (F := F) x0 x1 x5 = nthr
  generalize val_main_v30 (F := F) x2 x4 = cids
  generalize val_main_v23 (F := F) x1 x5 = tsims
  generalize val_main_v47 (F := F) x5 = rows
  unfold Cert.Shared.lossOf Cert.Shared.gatherIds
  rfl

/-- The reference's run, its two results stated as the stage functions of the arguments. -/
theorem run_vals (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
          = val_main_v52 (F := F) (m ((c.tc : Thread nD τ).loc main_arg0)) (m ((c.tc : Thread nD τ).loc main_arg1))
              (m ((c.tc : Thread nD τ).loc main_arg2)) (m ((c.tc : Thread nD τ).loc main_arg4))
              (m ((c.tc : Thread nD τ).loc main_arg5))
      ∧ r.2.mem ((c.tc : Thread nD τ).loc main_v3)
          = val_main_v3 (F := F) (m ((c.tc : Thread nD τ).loc main_arg0)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
      obtain ⟨h52, h3, hargs⟩ := h c
      exact ⟨h52.trans (val_main_v52_eq m c), h3.trans (val_main_v3_eq _ _), hargs⟩)
    (Cert.ReferenceIdeal.ValueP.run m ρ)

end Generic

/-! ## Over the extended reals: three arrays against the reference's stages -/

section IdealSide

/-- Row `p` of the stacked operand's top half is row `p` of its first piece. -/
theorem stacked_top (x0 vt : (⟨S256x2048, .f32⟩ : BufTy).Contents (Elt Ideal)) (p : Fin 256) (k : Fin 2048) :
    Cert.KernelIdeal.Spec.stacked (F := Ideal) x0 vt
        (ix2 (⟨p.val, Nat.lt_of_lt_of_le p.isLt (by decide)⟩ : Fin 512) k) = x0 (ix2 p k) := by
  unfold Cert.KernelIdeal.Spec.stacked
  exact concatenate_pair_apply_left (t := Cert.KernelIdeal.S512x2048) 0 x0 vt
    Cert.KernelIdeal.Gen.concatenates_S256x2048_S256x2048_S512x2048_d0
    (ix2 (⟨p.val, Nat.lt_of_lt_of_le p.isLt (by decide)⟩ : Fin 512) k) rfl (ix2 p k)
    (fun b => match b with | ⟨0, _⟩ => rfl | ⟨1, _⟩ => rfl)

/-- Row `256 + p` of the stacked operand is row `p` of its second piece. -/
theorem stacked_bot (x0 vt : (⟨S256x2048, .f32⟩ : BufTy).Contents (Elt Ideal)) (p : Fin 256) (k : Fin 2048) :
    Cert.KernelIdeal.Spec.stacked (F := Ideal) x0 vt
        (ix2 (⟨256 + p.val, Nat.add_lt_add_left p.isLt 256⟩ : Fin 512) k) = vt (ix2 p k) := by
  unfold Cert.KernelIdeal.Spec.stacked
  exact concatenate_pair_apply_right (t := Cert.KernelIdeal.S512x2048) 0 x0 vt
    Cert.KernelIdeal.Gen.concatenates_S256x2048_S256x2048_S512x2048_d0
    (ix2 (⟨256 + p.val, Nat.add_lt_add_left p.isLt 256⟩ : Fin 512) k) rfl rfl (ix2 p k)
    (fun b hb => match b, hb with | ⟨0, _⟩, hb => absurd rfl hb | ⟨1, _⟩, _ => rfl)
    (by show p.val + 256 = 256 + p.val; omega)

/-- The top half of the stacked operand against the exemplar memory, scaled by 1.0, is the reference's outputs:
    both are the dot product of input row `p` with exemplar row `q`, times the same word. -/
theorem outputs_eq (x0 vt : (⟨S256x2048, .f32⟩ : BufTy).Contents (Elt Ideal))
    (x5 : (⟨S16384x2048, .f32⟩ : BufTy).Contents (Elt Ideal)) :
    Cert.KernelIdeal.Spec.prodTop (Cert.KernelIdeal.Spec.stacked (F := Ideal) x0 vt) x5
      = val_main_v3 (F := Ideal) x0 x5 := by
  funext j
  obtain ⟨p, q, rfl⟩ : ∃ (p : Fin 256) (q : Fin 16384), j = ix2 p q := ⟨j 0, j 1, eq_ix2 j⟩
  rw [val_main_v3_apply, val_main_v1_apply, val_main_v2_apply, val_main_cst_apply, Ideal.mulf_def, Ideal.ofBits_def]
  unfold Cert.KernelIdeal.Spec.prodTop
  refine congrArg (fun s => s * _) (Finset.sum_congr rfl fun k _ => ?_)
  rw [val_main_v0_apply]
  have el : lidx_main_v1 (ix2 p q) k = ix2 p k :=
    funext fun a => Fin.ext (by match a with | ⟨0, _⟩ => rfl | ⟨1, _⟩ => rfl)
  have er : idx_main_v0 (ridx_main_v1 (ix2 p q) k) = ix2 q k :=
    funext fun a => Fin.ext (by match a with | ⟨0, _⟩ => rfl | ⟨1, _⟩ => rfl)
  rw [el, er]
  exact congrArg (fun s => s * x5 (ix2 q k)) (stacked_top x0 vt p k)

/-- The bottom half of the stacked operand, holding the gathered target rows, against the exemplar memory is the
    reference's target similarities: both are the dot product of target row `p` with exemplar row `q`. -/
theorem tsims_eq (x0 : (⟨S256x2048, .f32⟩ : BufTy).Contents (Elt Ideal)) (x1 : (⟨S256, .i32⟩ : BufTy).Contents (Elt Ideal))
    (x5 : (⟨S16384x2048, .f32⟩ : BufTy).Contents (Elt Ideal)) :
    Cert.KernelIdeal.Spec.prodBot (Cert.KernelIdeal.Spec.stacked (F := Ideal) x0 (val_main_v21 (F := Ideal) x1 x5)) x5
      = val_main_v23 (F := Ideal) x1 x5 := by
  funext j
  obtain ⟨p, q, rfl⟩ : ∃ (p : Fin 256) (q : Fin 16384), j = ix2 p q := ⟨j 0, j 1, eq_ix2 j⟩
  rw [val_main_v23_apply]
  unfold Cert.KernelIdeal.Spec.prodBot
  refine Finset.sum_congr rfl fun k _ => ?_
  rw [val_main_v22_apply]
  have el : lidx_main_v23 (ix2 p q) k = ix2 p k :=
    funext fun a => Fin.ext (by match a with | ⟨0, _⟩ => rfl | ⟨1, _⟩ => rfl)
  have er : idx_main_v22 (ridx_main_v23 (ix2 p q) k) = ix2 q k :=
    funext fun a => Fin.ext (by match a with | ⟨0, _⟩ => rfl | ⟨1, _⟩ => rfl)
  rw [el, er]
  exact congrArg (fun s => s * x5 (ix2 q k)) (stacked_bot x0 (val_main_v21 (F := Ideal) x1 x5) p k)

/-- The column of exemplar row sums, flattened, is the reference's row-sum stage: entry `c` of either is the sum of
    exemplar row `c` (the reference's starts from the zero word). -/
theorem rows_eq (x5 : (⟨S16384x2048, .f32⟩ : BufTy).Contents (Elt Ideal)) :
    shapeCast _ (Cert.KernelIdeal.Spec.rowSums x5) Cert.KernelIdeal.Gen.shapeCasts_S16384x1_S16384
      = val_main_v47 (F := Ideal) x5 := by
  funext j
  obtain ⟨c, rfl⟩ : ∃ c : Fin 16384, j = ix1 c := ⟨j 0, eq_ix1 j⟩
  rw [val_main_v47_apply, val_main_cst_12_apply, Ideal.ofBits_def, Ideal.ofBits_zero_f32, zero_add]
  rw [shapeCast_apply (Cert.KernelIdeal.Spec.rowSums x5) _ (ix1 c) (ix2 c (0 : Fin 1))
    (by rw [Shape.rowMajor_val_two, Shape.rowMajor_val_one]; show c.val * 1 + 0 = c.val; omega)]
  unfold Cert.KernelIdeal.Spec.rowSums
  exact Finset.sum_congr rfl fun k _ =>
    congrArg x5 (funext fun a => Fin.ext (by match a with | ⟨0, _⟩ => rfl | ⟨1, _⟩ => rfl))

end IdealSide

end Cert.ReferenceIdeal.RefValue

end
-- ==== Proof.Ranges.lean ====
/-
  The evident domain of the two index inputs: every target, and every negative-pair index, read as a signed
  integer, is a row number of the exemplar memory, that is lies in [0, 16384).
-/
import proofs.«416849_j74483322847821_3_alg».proof.KernelIdeal
import Idealize.ShloMosaic.Lib.ValueIdx

namespace Cert.Bridge

open Idealize.ShloMosaic Idealize.ShloMosaic.ValueIdx

/-- Every target is a row number of the exemplar memory. -/
def TargetsInRange (x1 : IVec Cert.KernelIdeal.S256 32) : Prop :=
  ∀ b : Fin 256, 0 ≤ (x1 (ix1 b)).toInt ∧ (x1 (ix1 b)).toInt < 16384

/-- Every negative-pair index is a row number of the exemplar memory. -/
def PairsInRange (x2 : IVec Cert.KernelIdeal.S256x64 32) : Prop :=
  ∀ (b : Fin 256) (j : Fin 64), 0 ≤ (x2 (ix2 b j)).toInt ∧ (x2 (ix2 b j)).toInt < 16384

end Cert.Bridge
-- ==== Proof.PreDecode.lean ====
/-
  The precondition read back, and what it does to the two bounds masks of the host code.

  The precondition is a conjunction, reduced to one bit: every float input is finite, and every entry of the
  targets and of the negative pairs, read as a signed integer, lies in [0, 16384). From "the bit is 1" the two
  integer conjuncts are taken apart: a conjunction of bits is 1 when both are, an all-reduction by "and" is 1
  when every entry is, and a signed comparison's bit is 1 when the comparison holds.

  With every index in [0, 16384): "index < 0" is nowhere set, so the wrap (add 16384 where negative) leaves the
  index as it is; "0 ≤ index" and "index ≤ 16383" are set everywhere, so their conjunction reduced by "and" over the
  size-one last axis is 1 everywhere; and a select on a mask that is 1 everywhere is its first branch. Hence each
  masked gather is the plain gather.
-/
import proofs.«416849_j74483322847821_3_alg».proof.Pre_finite_inputs
import proofs.«416849_j74483322847821_3_alg».proof.Proof.Gen.Pre_finite_inputs
import proofs.«416849_j74483322847821_3_alg».proof.Proof.KSpec
import proofs.«416849_j74483322847821_3_alg».proof.Proof.Ranges
import Idealize.ShloMosaic.Lib.StableHlo.Predicate
import Idealize.ShloMosaic.Lib.ReduceAll
import Idealize.ShloMosaic.Lib.ValueIdx
import Idealize.ShloMosaic.Lib.ValueLayout

noncomputable section

namespace Cert.Bridge

open Idealize.ShloMosaic Idealize.ShloMosaic.ValueIdx

/-! ## Words and bits -/

/-- The scalar shape has one index. -/
instance subsingleton_scalar_idx : Subsingleton Cert.Pre_finite_inputs.S_.Idx := ⟨fun a b => funext fun d => d.elim0⟩

theorem toInt_lit0 : (0#32 : BitVec 32).toInt = 0 := by decide
theorem toInt_lit16384 : (16384#32 : BitVec 32).toInt = 16384 := by decide
theorem toInt_lit16383 : (16383#32 : BitVec 32).toInt = 16383 := by decide

/-- The two comparison bits of the precondition, read back: the word lies in [0, 16384) as a signed integer. -/
theorem range_of_bits (w : BitVec 32) (h0 : IntOp.cmpi .sge w 0#32 = 1#1) (h1 : IntOp.cmpi .slt w 16384#32 = 1#1) :
    0 ≤ w.toInt ∧ w.toInt < 16384 := by
  have a := IntOp.cmpi_sge.1 h0
  have b := IntOp.cmpi_slt.1 h1
  rw [toInt_lit0] at a
  rw [toInt_lit16384] at b
  exact ⟨a, b⟩

/-- A word in [0, 16384) does not test negative. -/
theorem slt_zero_of_range (w : BitVec 32) (h0 : 0 ≤ w.toInt) : IntOp.cmpi .slt w 0#32 = 0#1 :=
  eq_zero_of_ne_one fun hc => by
    have a := IntOp.cmpi_slt.1 hc
    rw [toInt_lit0] at a
    omega

/-- A word in [0, 16384) passes both tests of the bounds mask: 0 ≤ w and w ≤ 16383. -/
theorem inb_of_range (w : BitVec 32) (h0 : 0 ≤ w.toInt) (h1 : w.toInt < 16384) :
    IntOp.andi (IntOp.cmpi .sge w 0#32) (IntOp.cmpi .sle w 16383#32) = 1#1 := by
  refine IntOp.andi_eq_one.2 ⟨IntOp.cmpi_sge.2 ?_, IntOp.cmpi_sle.2 ?_⟩
  · rw [toInt_lit0]; exact h0
  · rw [toInt_lit16383]; omega

/-- A left fold by "and" from 1 over bits that are all 1 is 1. -/
theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_of_all_one f hf l

/-- A reduction by "and" from 1 of an array of bits that are all 1 is 1 at every index. -/
theorem reduce_andi_of_all_one {s t u : Shape} {axes : List (Fin s.rank)} (x : s.Idx → BitVec 1)
    (h : s.ReducesTo axes t) (hu : 0 < u.numel) (hx : ∀ i, x i = 1#1) :
    Host.reduce IntOp.andi x (constantI u 1 1#1) h hu = fun _ => 1#1 := by
  funext j
  rw [Host.reduce_eq_foldl]
  exact foldl_andi_of_all_one x hx _

/-! ## The precondition, decoded -/

section Decode

variable {F : FTy → Type} [FloatOps F]

/-- Under the precondition every target lies in [0, 16384). -/
theorem targets_of_pre (x0 : FVec F Cert.Pre_finite_inputs.S256x2048 .f32) (x1 : IVec Cert.Pre_finite_inputs.S256 32)
    (x2 : IVec Cert.Pre_finite_inputs.S256x64 32) (x3 : IVec Cert.Pre_finite_inputs.S256 32)
    (x4 : IVec Cert.Pre_finite_inputs.S16384 32) (x5 : FVec F Cert.Pre_finite_inputs.S16384x2048 .f32)
    (h : Cert.Pre_finite_inputs.fn (F := F) x0 x1 x2 x3 x4 x5 = fun _ => 1#1) : TargetsInRange x1 := by
  intro b
  have e := congrFun h ix0
  dsimp only [Cert.Pre_finite_inputs.fn, Cert.Pre_finite_inputs.fn_part1] at e
  -- the bit is ((floats ∧ targets) ∧ pairs); the targets' conjunct is an all-reduction of (0 ≤ t) ∧ (t < 16384)
  obtain ⟨e15, -⟩ := IntOp.andi_eq_one.1 e
  obtain ⟨-, e14⟩ := IntOp.andi_eq_one.1 e15
  obtain ⟨hge, hlt⟩ := IntOp.andi_eq_one.1 (Host.reduce_andi_all _ _ _ _ _ e14 (ix1 b))
  exact range_of_bits (x1 (ix1 b)) hge hlt

/-- Under the precondition every negative-pair index lies in [0, 16384). -/
theorem pairs_of_pre (x0 : FVec F Cert.Pre_finite_inputs.S256x2048 .f32) (x1 : IVec Cert.Pre_finite_inputs.S256 32)
    (x2 : IVec Cert.Pre_finite_inputs.S256x64 32) (x3 : IVec Cert.Pre_finite_inputs.S256 32)
    (x4 : IVec Cert.Pre_finite_inputs.S16384 32) (x5 : FVec F Cert.Pre_finite_inputs.S16384x2048 .f32)
    (h : Cert.Pre_finite_inputs.fn (F := F) x0 x1 x2 x3 x4 x5 = fun _ => 1#1) : PairsInRange x2 := by
  intro b j
  have e := congrFun h ix0
  dsimp only [Cert.Pre_finite_inputs.fn, Cert.Pre_finite_inputs.fn_part1] at e
  -- the pairs' conjunct is the last: an all-reduction of (0 ≤ p) ∧ (p < 16384)
  obtain ⟨-, e21⟩ := IntOp.andi_eq_one.1 e
  obtain ⟨hge, hlt⟩ := IntOp.andi_eq_one.1 (Host.reduce_andi_all _ _ _ _ _ e21 (ix2 b j))
  exact range_of_bits (x2 (ix2 b j)) hge hlt

end Decode

/-! ## The range facts, used: the wraps are the identity and the bounds masks are all ones -/

section Use

variable {F : FTy → Type} [FloatOps F]

/-- Every entry of in-range targets is in range, whatever the index is called. -/
theorem TargetsInRange.at {x1 : IVec Cert.KernelIdeal.S256 32} (h : TargetsInRange x1) (i : Cert.KernelIdeal.S256.Idx) :
    0 ≤ (x1 i).toInt ∧ (x1 i).toInt < 16384 := by
  rw [eq_ix1 i]; exact h (i 0)

/-- Every entry of in-range negative pairs is in range, whatever the index is called. -/
theorem PairsInRange.at {x2 : IVec Cert.KernelIdeal.S256x64 32} (h : PairsInRange x2) (i : Cert.KernelIdeal.S256x64.Idx) :
    0 ≤ (x2 i).toInt ∧ (x2 i).toInt < 16384 := by
  rw [eq_ix2 i]; exact h (i 0) (i 1)

/-- In-range targets are not wrapped. -/
theorem wrapTargets_of_range (x1 : IVec Cert.KernelIdeal.S256 32) (h : TargetsInRange x1) :
    Cert.KernelIdeal.Spec.wrapTargets (F := F) x1 = x1 := by
  funext i
  show Scalar.select (IntOp.cmpi .slt (x1 i) 0#32) _ _ = _
  rw [slt_zero_of_range _ (h.at i).1, select_zero]

/-- In-range negative pairs are not wrapped. -/
theorem wrapPairs_of_range (x2 : IVec Cert.KernelIdeal.S256x64 32) (h : PairsInRange x2) :
    Cert.KernelIdeal.Spec.wrapPairs (F := F) x2 = x2 := by
  funext i
  show Scalar.select (IntOp.cmpi .slt (x2 i) 0#32) _ _ = _
  rw [slt_zero_of_range _ (h.at i).1, select_zero]

/-- Every start index of the row gather is a target. -/
theorem targetIdx_eq_entry (x1 : IVec Cert.KernelIdeal.S256 32) (h : TargetsInRange x1) (i : Cert.KernelIdeal.S256x1.Idx) :
    ∃ k : Cert.KernelIdeal.S256.Idx, Cert.KernelIdeal.Spec.targetIdx (F := F) x1 i = x1 k := by
  unfold Cert.KernelIdeal.Spec.targetIdx
  rw [wrapTargets_of_range (F := F) x1 h]
  exact ⟨_, rfl⟩

/-- Every start index of the cluster-id gather is a negative-pair index. -/
theorem pairIdx_eq_entry (x2 : IVec Cert.KernelIdeal.S256x64 32) (h : PairsInRange x2) (i : Cert.KernelIdeal.S256x64x1.Idx) :
    ∃ k : Cert.KernelIdeal.S256x64.Idx, Cert.KernelIdeal.Spec.pairIdx (F := F) x2 i = x2 k := by
  unfold Cert.KernelIdeal.Spec.pairIdx
  rw [wrapPairs_of_range (F := F) x2 h]
  exact ⟨_, rfl⟩

/-- With in-range targets the rows' bounds mask is all ones. -/
theorem targetInb_of_range (x1 : IVec Cert.KernelIdeal.S256 32) (h : TargetsInRange x1) :
    Cert.KernelIdeal.Spec.targetInb (F := F) x1 = fun _ => 1#1 := by
  unfold Cert.KernelIdeal.Spec.targetInb
  refine reduce_andi_of_all_one _ _ _ fun i => ?_
  obtain ⟨k, hk⟩ := targetIdx_eq_entry (F := F) x1 h i
  show IntOp.andi (IntOp.cmpi .sge (Cert.KernelIdeal.Spec.targetIdx (F := F) x1 i) 0#32)
    (IntOp.cmpi .sle (Cert.KernelIdeal.Spec.targetIdx (F := F) x1 i) 16383#32) = 1#1
  rw [hk]
  exact inb_of_range _ (h.at k).1 (h.at k).2

/-- With in-range negative pairs the entries' bounds mask is all ones. -/
theorem pairInb_of_range (x2 : IVec Cert.KernelIdeal.S256x64 32) (h : PairsInRange x2) :
    Cert.KernelIdeal.Spec.pairInb (F := F) x2 = fun _ => 1#1 := by
  unfold Cert.KernelIdeal.Spec.pairInb
  refine reduce_andi_of_all_one _ _ _ fun i => ?_
  obtain ⟨k, hk⟩ := pairIdx_eq_entry (F := F) x2 h i
  show IntOp.andi (IntOp.cmpi .sge (Cert.KernelIdeal.Spec.pairIdx (F := F) x2 i) 0#32)
    (IntOp.cmpi .sle (Cert.KernelIdeal.Spec.pairIdx (F := F) x2 i) 16383#32) = 1#1
  rw [hk]
  exact inb_of_range _ (h.at k).1 (h.at k).2

/-- With in-range targets the masked row gather is the plain gather. -/
theorem takeRows_of_range (x1 : IVec Cert.KernelIdeal.S256 32) (x5 : FVec F Cert.KernelIdeal.S16384x2048 .f32)
    (h : TargetsInRange x1) :
    Cert.KernelIdeal.Spec.takeRows (F := F) x1 x5
      = Host.gather Cert.KernelIdeal.gather_S16384x2048_S256x1_S256x2048_1_0_n_n_0_1_12048 x5
          (Cert.KernelIdeal.Spec.targetIdx (F := F) x1) := by
  unfold Cert.KernelIdeal.Spec.takeRows
  rw [targetInb_of_range (F := F) x1 h]
  funext i
  -- the mask broadcast over the rows reads 1 at every entry
  exact select_one _ _

/-- With in-range negative pairs the masked cluster-id gather is the plain gather. -/
theorem clusterIds_of_range (x2 : IVec Cert.KernelIdeal.S256x64 32) (x4 : IVec Cert.KernelIdeal.S16384 32)
    (h : PairsInRange x2) :
    Cert.KernelIdeal.Spec.clusterIds (F := F) x2 x4
      = Host.gather Cert.KernelIdeal.gather_S16384_S256x64x1_S256x64_n_0_n_n_0_2_1 x4
          (Cert.KernelIdeal.Spec.pairIdx (F := F) x2) := by
  unfold Cert.KernelIdeal.Spec.clusterIds
  rw [pairInb_of_range (F := F) x2 h]
  funext i
  exact select_one _ _

end Use

end Cert.Bridge

end
-- ==== Proof.LibGather.lean ====
/-
  General lemma: the row gather (`table[idx]` over the rows of a rank-2 table, the row numbers an [M, 1] column), read
  at an index. Result row `e` is the table's row `min (max idx 0) (N - 1)`: the `e`-th start index read as a signed
  integer and clamped into the table.
-/
import Idealize.ShloMosaic.PureOps.Ideal
import Idealize.ShloMosaic.Lib.ValueIdx
import Idealize.ShloMosaic.Lib.StableHlo.Predicate

noncomputable section

namespace Cert.LibGather

open Idealize.ShloMosaic Idealize.ShloMosaic.ValueIdx Idealize.ShloMosaic.StableHlo.Predicate

/-- The dimension numbers of a row gather: table [N, C], row numbers as an [M, 1] column, result [M, C]. -/
def rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- A row gather at result row `e`, column `l`: the table's row at the `e`-th start index, read signed and clamped
    into `[0, N - 1]`, at column `l`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (l : Fin C) :
    Host.gather (rowGatherDims N M C wf) x idx (ix2 e l)
      = x (ix2 ⟨min (idx (ixP e)).toInt.toNat (N - 1), by omega⟩ l) := by
  unfold Host.gather
  congr 1
  funext a
  refine Fin.ext ?_
  have h10 : ¬ ((1 : Fin 2) = 0) := by decide
  match a with
  | ⟨0, _⟩ =>
    -- axis 0 (the rows): collapsed and named by the start index map, so the coordinate is the clamped start alone
    show (rowGatherDims N M C wf).start (ix2 e l) idx 0 + (rowGatherDims N M C wf).batchCoord (ix2 e l) 0
        + (rowGatherDims N M C wf).offCoord (ix2 e l) 0 = min (idx (ixP e)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    -- the start index is read at row e of the column: the result's batch axis 0 feeds the column's axis 0
    have hsi : (rowGatherDims N M C wf).siIdx (ix2 e l) ⟨List.idxOf (0 : Fin 2) (rowGatherDims N M C wf).startIndexMap,
        List.idxOf_lt_length_iff.2 (List.mem_singleton.mpr rfl)⟩ = ixP e := by
      funext b; refine Fin.ext ?_
      match b with
      | ⟨0, _⟩ => rfl
      | ⟨1, _⟩ => rfl
    rw [hsi]
    rfl
  | ⟨1, _⟩ =>
    -- axis 1 (the columns): the one kept axis; not start-indexed, so start 0, and the offset coordinate is l
    show (rowGatherDims N M C wf).start (ix2 e l) idx 1 + (rowGatherDims N M C wf).batchCoord (ix2 e l) 1
        + (rowGatherDims N M C wf).offCoord (ix2 e l) 1 = l.val
    have h1s : (1 : Fin 2) ∉ (rowGatherDims N M C wf).startIndexMap := fun h => h10 (List.mem_singleton.mp h)
    have h1c : (1 : Fin 2) ∉ (rowGatherDims N M C wf).collapsedSliceDims := fun h => h10 (List.mem_singleton.mp h)
    have hs : (rowGatherDims N M C wf).start (ix2 e l) idx 1 = 0 := by
      unfold GatherDims.start
      rw [dif_neg h1s]
    rw [hs, GatherDims.batchCoord_eq_zero _ _ _ List.not_mem_nil]
    simp only [Nat.add_zero, Nat.zero_add]
    unfold GatherDims.offCoord
    rw [dif_pos ((GatherDims.mem_sKept _ _).mpr ⟨h1c, List.not_mem_nil⟩)]
    rfl

end Cert.LibGather

end
-- ==== Proof.Thresholds.lean ====
/-
  The reference's thresholds are the kernel's.

  Three stages of the reference are, operation for operation, the kernel side's named functions: the inputs divided by
  their floored row norms, the row gather of the exemplar memory at the wrapped targets, and the gather of the cluster
  ids at the wrapped negative-pair indices.

  Over the extended reals, with every target a row number of the exemplar memory: row b's threshold on the kernel side
  is the dot product of the normalised input row b with the gathered exemplar row, minus the margin; on the reference
  side it is entry (b, target b) of the full similarity matrix (normalised inputs times the transposed exemplar memory),
  picked by a gather under a bounds mask, minus the same margin. In range the mask is set, both gathers read exemplar
  row (target b), and the two numbers are the same sum over the feature axis.
-/
import proofs.«416849_j74483322847821_3_alg».proof.Proof.RefRead
import proofs.«416849_j74483322847821_3_alg».proof.Proof.KSpec
import proofs.«416849_j74483322847821_3_alg».proof.Proof.Ranges
import proofs.«416849_j74483322847821_3_alg».proof.Proof.LibGather
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.ReduceAll
import Idealize.ShloMosaic.PureOps.Ideal.Laws

noncomputable section

namespace Cert.Bridge

open Cert.ReferenceIdeal.ReadP Idealize.ShloMosaic Idealize.ShloMosaic.ValueIdx

section Stages

variable {F : FTy → Type} [FloatOps F]

/-- The reference's normalised inputs are the kernel side's: the same operations on the same shapes. -/
theorem ref_normIn (x0 : (⟨Cert.ReferenceIdeal.S256x2048, .f32⟩ : BufTy).Contents (Elt F)) :
    val_main_v8 (F := F) x0 = Cert.KernelIdeal.Spec.normIn (F := F) x0 := by
  unfold val_main_v8 val_main_v7 val_main_v6 val_main_v5 val_main_cst_0 val_main_v4 val_main_call0_v2 val_main_call0_v1
    val_main_call0_cst val_main_call0_v0 Cert.KernelIdeal.Spec.normIn
  rfl

/-- The reference's gathered exemplar rows are the row gather at the kernel side's start indices. -/
theorem ref_rows (x1 : (⟨Cert.ReferenceIdeal.S256, .i32⟩ : BufTy).Contents (Elt F))
    (x5 : (⟨Cert.ReferenceIdeal.S16384x2048, .f32⟩ : BufTy).Contents (Elt F)) :
    val_main_v21 (F := F) x1 x5
      = Host.gather Cert.KernelIdeal.gather_S16384x2048_S256x1_S256x2048_1_0_n_n_0_1_12048 x5
          (Cert.KernelIdeal.Spec.targetIdx (F := F) x1) := by
  unfold val_main_v21 val_main_v20 val_main_v19 val_main_v18 val_main_v17 val_main_c_2 val_main_v16 val_main_v15 val_main_c
    Cert.KernelIdeal.Spec.targetIdx Cert.KernelIdeal.Spec.wrapTargets
  rfl

/-- The reference's gathered cluster ids are the gather at the kernel side's start indices. -/
theorem ref_ids (x2 : (⟨Cert.ReferenceIdeal.S256x64, .i32⟩ : BufTy).Contents (Elt F))
    (x4 : (⟨Cert.ReferenceIdeal.S16384, .i32⟩ : BufTy).Contents (Elt F)) :
    val_main_v30 (F := F) x2 x4
      = Host.gather Cert.KernelIdeal.gather_S16384_S256x64x1_S256x64_n_0_n_n_0_2_1 x4
          (Cert.KernelIdeal.Spec.pairIdx (F := F) x2) := by
  unfold val_main_v30 val_main_v29 val_main_v28 val_main_v27 val_main_v26 val_main_c_4 val_main_v25 val_main_v24 val_main_c_3
    Cert.KernelIdeal.Spec.pairIdx Cert.KernelIdeal.Spec.wrapPairs
  rfl

end Stages

open Idealize.ShloMosaic.StableHlo.Predicate (ixP)

namespace Thr

/-! ## Words: a target in range is its own wrap, and passes the bounds test -/

/-- A nonnegative word is not below zero, so the wrap keeps it. -/
theorem wrap_of_nonneg (t : BitVec 32) (h0 : 0 ≤ t.toInt) :
    Scalar.select (IntOp.cmpi .slt t 0#32) (IntOp.addi t 16384#32) t = t := by
  have hc : IntOp.cmpi .slt t 0#32 = 0#1 := by
    refine eq_zero_of_ne_one fun h1 => ?_
    have := IntOp.cmpi_slt.1 h1
    rw [show (0#32 : BitVec 32).toInt = 0 from by decide] at this
    omega
  rw [hc, select_zero]

/-- A word in [0, 16384) passes both bounds tests. -/
theorem inb_of_range (t : BitVec 32) (h0 : 0 ≤ t.toInt) (h1 : t.toInt < 16384) :
    IntOp.andi (IntOp.cmpi .sge t 0#32) (IntOp.cmpi .sle t 16383#32) = 1#1 := by
  refine IntOp.andi_eq_one.2 ⟨IntOp.cmpi_sge.2 ?_, IntOp.cmpi_sle.2 ?_⟩
  · rw [show (0#32 : BitVec 32).toInt = 0 from by decide]; exact h0
  · rw [show (16383#32 : BitVec 32).toInt = 16383 from by decide]; omega

/-- A fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-! ## The reference's index stages at a row, for targets in range -/

variable (x1 : (⟨Cert.ReferenceIdeal.S256, .i32⟩ : BufTy).Contents (Elt Ideal))

/-- The rank-1 wrapped targets at row b: the target itself. -/
theorem v19_at (h : TargetsInRange x1) (b : Fin 256) : val_main_v19 (F := Ideal) x1 (ix1 b) = x1 (ix1 b) := by
  rw [val_main_v19_apply, val_main_v16_apply, val_main_v18_apply, val_main_v15_apply, val_main_v17_apply, val_main_c_apply,
    val_main_c_2_apply]
  exact wrap_of_nonneg _ (h b).1

/-- The row gather's start index at row b: the target itself. -/
theorem v20_at (h : TargetsInRange x1) (b : Fin 256) : val_main_v20 (F := Ideal) x1 (ixP b) = x1 (ix1 b) := by
  rw [val_main_v20_apply, show idx_main_v20 (ixP b) = ix1 b from funext fun a => by match a with | ⟨0, _⟩ => rfl]
  exact v19_at x1 h b

/-- The wrapped target column at row b: the target itself. -/
theorem c1v4_at (h : TargetsInRange x1) (b : Fin 256) (c : Fin 1) :
    val_main_call1_v4 (F := Ideal) x1 (ix2 b c) = x1 (ix1 b) := by
  rw [val_main_call1_v4_apply, val_main_call1_v1_apply, val_main_call1_v3_apply, val_main_call1_v0_apply, val_main_call1_v2_apply,
    val_main_call1_c_apply, val_main_call1_c_0_apply, val_main_v11_apply,
    show idx_main_v11 (ix2 b c) = ix1 b from funext fun a => by match a with | ⟨0, _⟩ => rfl]
  exact wrap_of_nonneg _ (h b).1

/-- The take-along-axis gather's start index at row b: the target itself. -/
theorem c1v5_at (h : TargetsInRange x1) (b : Fin 256) (c d : Fin 1) :
    val_main_call1_v5 (F := Ideal) x1 (ix3 b c d) = x1 (ix1 b) := by
  rw [val_main_call1_v5_apply,
    show idx_main_call1_v5 (ix3 b c d) = ix2 b 0 from funext fun a => by
      match a with
      | ⟨0, _⟩ => exact Fin.ext (by show ((b.val * 1 + c.val) * 1 + d.val) / 1 = b.val; omega)
      | ⟨1, _⟩ => rfl]
  exact c1v4_at x1 h b 0

/-- Every entry of the bounds test is 1. -/
theorem c1v11_at (h : TargetsInRange x1) (i : Cert.ReferenceIdeal.S256x1x1.Idx) :
    val_main_call1_v11 (F := Ideal) x1 i = 1#1 := by
  obtain ⟨b, c, d, rfl⟩ : ∃ b c d, i = ix3 b c d := ⟨i 0, i 1, i 2, eq_ix3 i⟩
  rw [val_main_call1_v11_apply, val_main_call1_v7_apply, val_main_call1_v10_apply, val_main_call1_v6_apply, val_main_call1_v9_apply,
    val_main_call1_v8_apply, val_main_call1_c_2_apply, val_main_call1_c_1_apply, c1v5_at x1 h b c d]
  exact inb_of_range _ (h b).1 (h b).2

/-- The bounds mask is set at every row. -/
theorem c1v12_at (h : TargetsInRange x1) (i : Cert.ReferenceIdeal.S256x1.Idx) :
    val_main_call1_v12 (F := Ideal) x1 i = 1#1 := by
  unfold val_main_call1_v12 Host.reduce
  exact foldl_andi_one _ _ fun n _ => c1v11_at x1 h _

/-! ## The take-along-axis gather read at a row -/

/-- The gather with operand batching axis 0 and the collapsed, start-indexed axis 1, at result row b: the operand at
    (b, the b-th start index read signed and clamped into [0, 16383]). -/
theorem gather_along_apply {α : Type} {w : Nat} (x : Cert.ReferenceIdeal.S256x16384.Idx → α)
    (idx : IVec Cert.ReferenceIdeal.S256x1x1 w) (b : Fin 256) (c : Fin 1) :
    Host.gather Cert.ReferenceIdeal.gather_S256x16384_S256x1x1_S256x1_n_1_0_0_1_2_11 x idx (ix2 b c)
      = x (ix2 b ⟨min (idx (ix3 b 0 0)).toInt.toNat 16383, by omega⟩) := by
  unfold Host.gather
  congr 1
  funext a
  refine Fin.ext ?_
  have h01 : ¬ ((0 : Fin 2) = 1) := by decide
  have h10 : ¬ ((1 : Fin 2) = 0) := by decide
  match a with
  | ⟨0, _⟩ =>
    -- axis 0 (the batch rows): a batching axis, so no start and no offset; the batch coordinate is the result's row
    show Cert.ReferenceIdeal.gather_S256x16384_S256x1x1_S256x1_n_1_0_0_1_2_11.start (ix2 b c) idx 0
        + Cert.ReferenceIdeal.gather_S256x16384_S256x1x1_S256x1_n_1_0_0_1_2_11.batchCoord (ix2 b c) 0
        + Cert.ReferenceIdeal.gather_S256x16384_S256x1x1_S256x1_n_1_0_0_1_2_11.offCoord (ix2 b c) 0 = b.val
    have hb : (0 : Fin 2) ∈ Cert.ReferenceIdeal.gather_S256x16384_S256x1x1_S256x1_n_1_0_0_1_2_11.operandBatchingDims :=
      List.mem_singleton.mpr rfl
    rw [GatherDims.start_batching _ _ _ _ hb,
      GatherDims.offCoord_eq_zero _ _ _ (fun h => ((GatherDims.mem_sKept _ _).mp h).2 hb)]
    simp only [Nat.add_zero, Nat.zero_add]
    unfold GatherDims.batchCoord
    rw [dif_pos hb]
    rfl
  | ⟨1, _⟩ =>
    -- axis 1 (the exemplars): collapsed and named by the start index map, so the coordinate is the clamped start alone
    show Cert.ReferenceIdeal.gather_S256x16384_S256x1x1_S256x1_n_1_0_0_1_2_11.start (ix2 b c) idx 1
        + Cert.ReferenceIdeal.gather_S256x16384_S256x1x1_S256x1_n_1_0_0_1_2_11.batchCoord (ix2 b c) 1
        + Cert.ReferenceIdeal.gather_S256x16384_S256x1x1_S256x1_n_1_0_0_1_2_11.offCoord (ix2 b c) 1
      = min (idx (ix3 b 0 0)).toInt.toNat 16383
    have hs : (1 : Fin 2) ∈ Cert.ReferenceIdeal.gather_S256x16384_S256x1x1_S256x1_n_1_0_0_1_2_11.startIndexMap :=
      List.mem_singleton.mpr rfl
    rw [GatherDims.batchCoord_eq_zero _ _ _ (fun h => h10 (List.mem_singleton.mp h)),
      GatherDims.offCoord_eq_zero _ _ _ (fun h => ((GatherDims.mem_sKept _ _).mp h).1 (List.mem_singleton.mpr rfl))]
    simp only [Nat.add_zero]
    unfold GatherDims.start
    rw [dif_pos hs]
    -- the start index is read at (b, 0, 0): the result's batch axis 0 feeds the start indices' axis 0
    have hsi : Cert.ReferenceIdeal.gather_S256x16384_S256x1x1_S256x1_n_1_0_0_1_2_11.siIdx (ix2 b c)
        ⟨List.idxOf (1 : Fin 2) Cert.ReferenceIdeal.gather_S256x16384_S256x1x1_S256x1_n_1_0_0_1_2_11.startIndexMap,
          List.idxOf_lt_length_iff.2 hs⟩ = ix3 b 0 0 := by
      funext a; refine Fin.ext ?_
      match a with
      | ⟨0, _⟩ => rfl
      | ⟨1, _⟩ => exact Nat.lt_one_iff.mp (Fin.isLt _)
      | ⟨2, _⟩ => rfl
    rw [hsi]
    rfl

/-! ## The kernel side's dot product at a row -/

/-- A row sum of a product, from the zero word, spread to a column: at row b the sum over the feature axis of the
    factors' products. -/
theorem col_dot_at (ni vt : FVec Ideal ⟨2, ![256, 2048]⟩ .f32)
    (hb : (⟨1, ![256]⟩ : Shape).BroadcastsInDim ⟨2, ![256, 1]⟩ ![0])
    (hr : (⟨2, ![256, 2048]⟩ : Shape).ReducesTo [1] ⟨1, ![256]⟩) (hu : 0 < (⟨0, ![]⟩ : Shape).numel) (b : Fin 256) (c : Fin 1) :
    broadcastInDim ⟨2, ![256, 1]⟩ ![0] hb
        (Host.reduceAdd (mulf ni vt) (constant (F := Ideal) ⟨0, ![]⟩ .f32 0x00000000#32) hr hu) (ix2 b c)
      = ∑ k : Fin 2048, ni (ix2 b k) * vt (ix2 b k) := by
  rw [broadcastInDim_apply _ hb _ (ix2 b c) (ix1 b) (fun a => match a with
    | ⟨0, _⟩ => by show b.val = if (256 : Nat) = 1 then 0 else b.val; rw [if_neg (by decide)])]
  simp only [Host.reduceAdd, Ideal.hostReduceAdd_def]
  rw [Ideal.hostReduceAdd_single hr (by decide)]
  show Ideal.ofBits .f32 0x00000000#32 + _ = _
  rw [Ideal.ofBits_zero_f32, zero_add]
  refine Finset.sum_congr rfl fun k _ => ?_
  show ni _ * vt _ = _
  congr 1 <;> exact congrArg _ (funext fun a => Fin.ext (by match a with | ⟨0, _⟩ => rfl | ⟨1, _⟩ => rfl))

end Thr

/-! ## The thresholds -/

open Thr in
/-- With every target a row number of the exemplar memory, the kernel side's thresholds (the dot product of each
    normalised input row with its gathered exemplar row, minus the margin) are the reference's (the similarity matrix
    at (b, target b), minus the margin): both are the sum over k of normIn[b, k] · V[target b, k], minus the margin. -/
theorem thresholds_eq (x0 : (⟨Cert.ReferenceIdeal.S256x2048, .f32⟩ : BufTy).Contents (Elt Ideal))
    (x1 : (⟨Cert.ReferenceIdeal.S256, .i32⟩ : BufTy).Contents (Elt Ideal))
    (x5 : (⟨Cert.ReferenceIdeal.S16384x2048, .f32⟩ : BufTy).Contents (Elt Ideal)) (h : TargetsInRange x1) :
    Cert.KernelIdeal.Spec.thresholds (F := Ideal) (Cert.KernelIdeal.Spec.normIn (F := Ideal) x0)
        (val_main_v21 (F := Ideal) x1 x5)
      = val_main_v14 (F := Ideal) x0 x1 x5 := by
  funext i
  obtain ⟨b, c, rfl⟩ : ∃ b c, i = ix2 b c := ⟨i 0, i 1, eq_ix2 i⟩
  -- the reference: the mask is set, so the select keeps the gathered similarity
  rw [val_main_v14_apply, val_main_v12_apply, c1v12_at x1 h, select_one]
  rw [Ideal.subf_def]
  unfold Cert.KernelIdeal.Spec.thresholds
  rw [subf_apply]
  -- both sides subtract the same margin splat
  refine congrArg₂ (· - ·) ?_ rfl
  -- the kernel side's sum over the feature axis
  rw [col_dot_at]
  -- the reference's: entry (b, target b) of the similarity matrix, a sum over the feature axis
  unfold val_main_call1_v13
  rw [gather_along_apply, val_main_v10_apply]
  refine Finset.sum_congr rfl fun k _ => ?_
  rw [← ref_normIn, val_main_v9_apply]
  -- the gathered exemplar row b is row (target b)
  have hrow : val_main_v21 (F := Ideal) x1 x5 (ix2 b k)
      = x5 (ix2 ⟨min (val_main_v20 (F := Ideal) x1 (ixP b)).toInt.toNat (16384 - 1), by omega⟩ k) :=
    Cert.LibGather.gather_rows_apply (by decide)
      Cert.ReferenceIdeal.gather_S16384x2048_S256x1_S256x2048_1_0_n_n_0_1_12048.wf x5 (val_main_v20 (F := Ideal) x1) b k
  rw [hrow]
  congr 1
  · exact congrArg _ (funext fun a => Fin.ext (by match a with | ⟨0, _⟩ => rfl | ⟨1, _⟩ => rfl))
  · refine congrArg x5 (funext fun a => Fin.ext ?_)
    match a with
    | ⟨0, _⟩ =>
      -- both start indices are the target itself
      show min (val_main_v20 (F := Ideal) x1 (ixP b)).toInt.toNat (16384 - 1)
        = min (val_main_call1_v5 (F := Ideal) x1 (ix3 b 0 0)).toInt.toNat 16383
      rw [v20_at x1 h b, c1v5_at x1 h b 0 0]
    | ⟨1, _⟩ => rfl

end Cert.Bridge

end
-- ==== Proof.Algebraic.lean ====
/-
  The five claims.

  Both programs' losses are the SAME function (`Cert.Shared.lossOf`) of four quantities: the per-row thresholds, the
  negative pairs' cluster ids, the target rows' similarities with every exemplar, and the exemplar memory's row sums.
  The kernel program gets them from its one pallas_call (one matrix product of the inputs stacked on the gathered
  target rows with the transposed exemplar memory, its bottom half; and the tiles' row sums) and from plain host
  lines (a direct dot product for the thresholds; a masked gather for the target rows and the cluster ids); the
  reference from three separate matrix products and unmasked gathers.  Over the extended reals a matrix product is
  its sum of products whatever the tiling, so the similarities and the outputs agree entry by entry and the row sums
  are the same sums; and where every target and every negative-pair index is a row number of the exemplar memory
  (the precondition) the kernel's bounds masks are all-true, so its masked gathers are the reference's gathers and
  its direct dot product is the reference's gathered entry of the full similarity matrix.
-/
import proofs.«416849_j74483322847821_3_alg».proof.Defs
import proofs.«416849_j74483322847821_3_alg».proof.Proof.KIFrame
import proofs.«416849_j74483322847821_3_alg».proof.Proof.KBFrame
import proofs.«416849_j74483322847821_3_alg».proof.Proof.KIArrays
import proofs.«416849_j74483322847821_3_alg».proof.Proof.KITail
import proofs.«416849_j74483322847821_3_alg».proof.Proof.RefValue
import proofs.«416849_j74483322847821_3_alg».proof.Proof.PreDecode
import proofs.«416849_j74483322847821_3_alg».proof.Proof.Thresholds

set_option maxRecDepth 16384

noncomputable section

namespace Cert.Proof.Claims

open Idealize.ShloMosaic Idealize.ShloMosaic.TcCoe Idealize.SL.Sem
open Cert.KernelIdeal.Spec Cert.Bridge

/-! ## The loss, from the arguments, on both sides -/

/-- The kernel program's loss as a function of its arguments: the shared function of the kernel's four quantities. -/
def lossK (x0 : (⟨Cert.KernelIdeal.S256x2048, .f32⟩ : BufTy).Contents (Elt Ideal)) (x1 : (⟨Cert.KernelIdeal.S256, .i32⟩ : BufTy).Contents (Elt Ideal))
    (x2 : (⟨Cert.KernelIdeal.S256x64, .i32⟩ : BufTy).Contents (Elt Ideal)) (x4 : (⟨Cert.KernelIdeal.S16384, .i32⟩ : BufTy).Contents (Elt Ideal))
    (x5 : (⟨Cert.KernelIdeal.S16384x2048, .f32⟩ : BufTy).Contents (Elt Ideal)) : (⟨Cert.KernelIdeal.S_, .f32⟩ : BufTy).Contents (Elt Ideal) :=
  Cert.Shared.lossOf (F := Ideal) (thresholds (F := Ideal) (normIn (F := Ideal) x0) (takeRows (F := Ideal) x1 x5)) (clusterIds (F := Ideal) x2 x4)
    (prodBot (stacked (F := Ideal) x0 (takeRows (F := Ideal) x1 x5)) x5)
    (shapeCast _ (rowSums x5) Cert.KernelIdeal.Gen.shapeCasts_S16384x1_S16384)

/-- The kernel program's outputs as a function of its arguments. -/
def outK (x0 : (⟨Cert.KernelIdeal.S256x2048, .f32⟩ : BufTy).Contents (Elt Ideal)) (x1 : (⟨Cert.KernelIdeal.S256, .i32⟩ : BufTy).Contents (Elt Ideal))
    (x5 : (⟨Cert.KernelIdeal.S16384x2048, .f32⟩ : BufTy).Contents (Elt Ideal)) : (⟨Cert.KernelIdeal.S256x16384, .f32⟩ : BufTy).Contents (Elt Ideal) :=
  prodTop (stacked (F := Ideal) x0 (takeRows (F := Ideal) x1 x5)) x5

/-- Where every target and every negative-pair index is a row number of the exemplar memory, the kernel program's
    loss is the reference's: the four quantities agree one by one. -/
theorem lossK_eq (x0) (x1) (x2) (x3) (x4) (x5)
    (h : Cert.Pre_finite_inputs.fn (F := Ideal) x0 x1 x2 x3 x4 x5 = fun _ => 1#1) :
    lossK x0 x1 x2 x4 x5 = Cert.ReferenceIdeal.ReadP.val_main_v52 (F := Ideal) x0 x1 x2 x4 x5 := by
  have ht : TargetsInRange x1 := targets_of_pre (F := Ideal) x0 x1 x2 x3 x4 x5 h
  have hp : PairsInRange x2 := pairs_of_pre (F := Ideal) x0 x1 x2 x3 x4 x5 h
  unfold lossK
  rw [Cert.ReferenceIdeal.RefValue.loss_eq, takeRows_of_range (F := Ideal) x1 x5 ht, ← ref_rows (F := Ideal) x1 x5,
    thresholds_eq x0 x1 x5 ht, clusterIds_of_range (F := Ideal) x2 x4 hp, ← ref_ids (F := Ideal) x2 x4,
    Cert.ReferenceIdeal.RefValue.tsims_eq, Cert.ReferenceIdeal.RefValue.rows_eq]

/-- The outputs do not depend on the index inputs at all. -/
theorem outK_eq (x0) (x1) (x5) : outK x0 x1 x5 = Cert.ReferenceIdeal.ReadP.val_main_v3 (F := Ideal) x0 x5 :=
  Cert.ReferenceIdeal.RefValue.outputs_eq x0 _ x5

/-! ## The kernel program's run over the extended reals -/

section KernelRun

open Cert.KernelIdeal Cert.KernelIdeal.Gen Cert.KernelIdeal.Hand

variable (m : (ℓ : Loc nD τ sig) → Buf (Elt Ideal) ℓ) (ρ : Dev nD → PrngReg)

/-- Every weakly fair execution of the kernel program ends with the loss and the outputs at the two functions of the
    arguments above, the arguments unchanged: the frame run, its result arrays read as whole-array functions and the
    later host lines as the shared function. -/
theorem kernel_run : θ_run defs (onTc (τ := τ) (main (F := Ideal))) ⟨m, fun _ => 0, ρ⟩ (fun r => ∀ c : Dev nD,
      r.2.mem ((c.tc : Thread nD τ).loc main_v35) = lossK (m ((c.tc : Thread nD τ).loc main_arg0)) (m ((c.tc : Thread nD τ).loc main_arg1))
          (m ((c.tc : Thread nD τ).loc main_arg2)) (m ((c.tc : Thread nD τ).loc main_arg4)) (m ((c.tc : Thread nD τ).loc main_arg5))
      ∧ r.2.mem ((c.tc : Thread nD τ).loc main_v7_0) = outK (m ((c.tc : Thread nD τ).loc main_arg0)) (m ((c.tc : Thread nD τ).loc main_arg1))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v35 (Pipeline.mem_restRefs_of main_v35 (by decide) (by decide))).trans (by
        rw [tail_loss, final_tsims, final_rowsums, V_main_v6, V_main_arg5']; rfl),
     ((h c).1 2).trans (by rw [final_outputs, V_main_v6, V_main_arg5']; rfl),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).1 1).trans ((((dats m) 0 c).arrAt_in 1 rfl _).trans ((A_eq m c 1).trans (V_main_arg5 m c)))⟩)
    (run_main m ρ)

end KernelRun

/-! ## The claims -/

theorem frame_k : Cert.frame_Kernel := fun m ρ _ => Cert.Kernel.Hand.frame m ρ
theorem frame_ki : Cert.frame_KernelIdeal := fun m ρ _ => Cert.KernelIdeal.Hand.frame m ρ
/-- The reference is a host program: its frame is its run with the results dropped. -/
theorem frame_ri : Cert.frame_ReferenceIdeal := fun m ρ _ =>
  (θ_run Cert.ReferenceIdeal.defs _ _).mono (fun _ h c => (h c).2.2) (Cert.ReferenceIdeal.RefValue.run_vals (F := Ideal) m ρ)

/-- From memories that agree on the arguments both programs end with the loss and the outputs at the reference's
    stage functions of those arguments. -/
theorem algebraic : Cert.algebraic_KernelIdeal_ReferenceIdeal := by
  intro m ρ m' ρ' hpre hagree
  refine ⟨_, _, kernel_run m ρ, ?_⟩
  refine (θ_run Cert.ReferenceIdeal.defs _ _).mono (fun _ h c => ?_) (Cert.ReferenceIdeal.RefValue.run_vals (F := Ideal) m' ρ')
  obtain ⟨h52, h3, hargs⟩ := h c
  obtain ⟨e0, e1, e2, e3, e4, e5⟩ := hagree c
  refine ⟨h52.trans ?_, h3.trans ?_, hargs⟩
  · rw [e0, e1, e2, e4, e5]
    exact (lossK_eq _ _ _ _ _ _ (hpre c)).symm
  · rw [e0, e5]
    exact (outK_eq _ _ _).symm

end Cert.Proof.Claims

end
-- ==== Proof.lean ====
/-
  The certificate of the hard-negative-mining loss and the exemplar-memory outputs.

  The kernel program normalises the inputs and gathers the target rows of the exemplar memory on the host, streams
  the memory once through one pallas_call — per tile ONE matrix product of the inputs stacked on the target rows,
  whose top half is the outputs and whose bottom half the target rows' similarities, and the tile's row sums — and
  finishes the loss on the host.  The reference computes the same quantities with three separate matrix products.
  The claim holds where every target and every negative-pair index is a row number of the exemplar memory: there
  the kernel's masked gathers (fill value where an index is out of range) are the reference's clamped gathers, and
  outside it they are not.  Over the extended reals every matrix product is its sum of products, so the outputs, the
  similarities and the row sums agree entry by entry, the thresholds are one dot product, and the rest of the loss
  is one shared function of those (Proof/Algebraic.lean).  The two kernel programs' frames run the pallas_call by
  the library's launch theorem for host lines on both sides of one region (Proof/KIFrame.lean, Proof/KBFrame.lean);
  the ideal pass rewrote nothing, so the idealization claim is trivial.
-/
import proofs.«416849_j74483322847821_3_alg».proof.Defs
import proofs.«416849_j74483322847821_3_alg».proof.Proof.Gen.Kernel
import proofs.«416849_j74483322847821_3_alg».proof.Proof.Gen.KernelIdeal
import proofs.«416849_j74483322847821_3_alg».proof.Proof.Gen.ReferenceIdeal
import proofs.«416849_j74483322847821_3_alg».proof.Proof.Gen.Pre_finite_inputs
import proofs.«416849_j74483322847821_3_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
